-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S256x64 : Shape := ⟨2, ![256, 64]⟩
abbrev S256 : Shape := ⟨1, ![256]⟩
abbrev S256x256 : Shape := ⟨2, ![256, 256]⟩
abbrev S128x256 : Shape := ⟨2, ![128, 256]⟩
abbrev S128 : Shape := ⟨1, ![128]⟩
abbrev S24x128 : Shape := ⟨2, ![24, 128]⟩
abbrev S24 : Shape := ⟨1, ![24]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S24x128 : S_.BroadcastsInDim S24x128 (![] : Fin 0 → Fin S24x128.rank)
  reducesTo_S24x128_S_d0_1 : S24x128.ReducesTo [0, 1] S_
  bcast_S_S24 : S_.BroadcastsInDim S24 (![] : Fin 0 → Fin S24.rank)
  reducesTo_S24_S_d0 : S24.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S24x128 .f32) (main_arg15 : FVec F S24 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S24x128 .f32 := Host.absf main_arg14
  let main_cst_22 : FVec F S_ .f32 := constant S_ .f32 0x7F800000#32
  let main_v60 : FVec F S24x128 .f32 := broadcastInDim S24x128 ![] bcast_S_S24x128 main_cst_22
  let main_v61 : IVec S24x128 1 := cmpf .olt main_v59 main_v60
  let main_c_23 : IVec S_ 1 := constantI S_ 1 1#1
  let main_v62 : IVec S_ 1 := (fun x v => Host.reduce IntOp.andi x v reducesTo_S24x128_S_d0_1 h_S_) main_v61 main_c_23
  let main_v63 : IVec S_ 1 := andi main_v58 main_v62
  let main_v64 : FVec F S24 .f32 := Host.absf main_arg15
  let main_cst_24 : FVec F S_ .f32 := constant S_ .f32 0x7F800000#32
  let main_v65 : FVec F S24 .f32 := broadcastInDim S24 ![] bcast_S_S24 main_cst_24
  let main_v66 : IVec S24 1 := cmpf .olt main_v64 main_v65
  let main_c_25 : IVec S_ 1 := constantI S_ 1 1#1
  let main_v67 : IVec S_ 1 := (fun x v => Host.reduce IntOp.andi x v reducesTo_S24_S_d0 h_S_) main_v66 main_c_25
  fn_part4 (F := F) main_v63 main_v67

def fn_part2 {F : FTy → Type} [FloatOps F] (main_arg9 : FVec F S256x256 .f32) (main_arg10 : FVec F S256 .f32) (main_arg11 : FVec F S256x256 .f32) (main_arg12 : FVec F S128x256 .f32) (main_arg13 : FVec F S128 .f32) (main_arg14 : FVec F S24x128 .f32) (main_arg15 : FVec F S24 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S128x256 .f32 := Host.absf main_arg12
  let main_cst_18 : FVec F S_ .f32 := constant S_ .f32 0x7F800000#32
  let main_v50 : FVec F S128x256 .f32 := broadcastInDim S128x256 ![] bcast_S_S128x256 main_cst_18
  fn_part3 (F := F) main_arg13 main_arg14 main_arg15 main_v48 main_v49 main_v50

def fn_part1 {F : FTy → Type} [FloatOps F] (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S128x256 .f32) (main_arg13 : FVec F S128 .f32) (main_arg14 : FVec F S24x128 .f32) (main_arg15 : FVec F S24 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : IVec S2x800000 32) (main_arg2 : IVec S50000 32) (main_arg3 : FVec F S256x64 .f32) (main_arg4 : FVec F S256 .f32) (main_arg5 : FVec F S256x64 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S128x256 .f32) (main_arg13 : FVec F S128 .f32) (main_arg14 : FVec F S24x128 .f32) (main_arg15 : FVec F S24 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S256x64 : Shape := ⟨2, ![256, 64]⟩
abbrev S256 : Shape := ⟨1, ![256]⟩
abbrev S256x256 : Shape := ⟨2, ![256, 256]⟩
abbrev S128x256 : Shape := ⟨2, ![128, 256]⟩
abbrev S128 : Shape := ⟨1, ![128]⟩
abbrev S24x128 : Shape := ⟨2, ![24, 128]⟩
abbrev S24 : Shape := ⟨1, ![24]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S1x256 : Shape := ⟨2, ![1, 256]⟩
abbrev S50000x256 : Shape := ⟨2, ![50000, 256]⟩
abbrev S2000x64 : Shape := ⟨2, ![2000, 64]⟩
abbrev S2000x256 : Shape := ⟨2, ![2000, 256]⟩
abbrev S800000x256 : Shape := ⟨2, ![800000, 256]⟩
abbrev S128x1 : Shape := ⟨2, ![128, 1]⟩
abbrev S1x128 : Shape := ⟨2, ![1, 128]⟩
abbrev S1x24 : Shape := ⟨2, ![1, 24]⟩
abbrev S128x24 : Shape := ⟨2, ![128, 24]⟩
abbrev S128x128 : Shape := ⟨2, ![128, 128]⟩

abbrev nBuf : Space → Nat
  | .hbm => 103
  | .vmem => 33
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S256x64, .f32⟩
  | .hbm, ⟨4, _⟩ => ⟨S256, .f32⟩
  | .hbm, ⟨5, _⟩ => ⟨S256x64, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S128x256, .f32⟩
  | .hbm, ⟨13, _⟩ => ⟨S128, .f32⟩
  | .hbm, ⟨14, _⟩ => ⟨S24x128, .f32⟩
  | .hbm, ⟨15, _⟩ => ⟨S24, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S1x256, .f32⟩
  | .hbm, ⟨49, _⟩ => ⟨S50000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x256, .f32⟩
  | .hbm, ⟨76, _⟩ => ⟨S_, .f32⟩
  | .hbm, ⟨77, _⟩ => ⟨S50000x256, .f32⟩
  | .hbm, ⟨78, _⟩ => ⟨S800000x1, .i32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S1x256, .f32⟩
  | .hbm, ⟨83, _⟩ => ⟨S50000x256, .f32⟩
  | .hbm, ⟨84, _⟩ => ⟨S_, .f32⟩
  | .hbm, ⟨85, _⟩ => ⟨S128x256, .f32⟩
  | .hbm, ⟨86, _⟩ => ⟨S50000x1, .i32⟩
  | .hbm, ⟨87, _⟩ => ⟨S128x256, .f32⟩
  | .hbm, ⟨88, _⟩ => ⟨S_, .f32⟩
  | .hbm, ⟨89, _⟩ => ⟨S50000, .f32⟩
  | .hbm, ⟨90, _⟩ => ⟨S_, .f32⟩
  | .hbm, ⟨91, _⟩ => ⟨S128, .f32⟩
  | .hbm, ⟨92, _⟩ => ⟨S50000x1, .i32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128x1, .f32⟩
  | .hbm, ⟨98, _⟩ => ⟨S128x256, .f32⟩
  | .hbm, ⟨99, _⟩ => ⟨S128x256, .f32⟩
  | .hbm, ⟨100, _⟩ => ⟨S1x128, .f32⟩
  | .hbm, ⟨101, _⟩ => ⟨S1x24, .f32⟩
  | .hbm, ⟨102, _⟩ => ⟨S128x24, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S256x64, .f32⟩
  | .local _ .vmem, ⟨5, _⟩ => ⟨S1x256, .f32⟩
  | .local _ .vmem, ⟨6, _⟩ => ⟨S256x64, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | .local _ .vmem, ⟨27, _⟩ => ⟨S128x256, .f32⟩
  | .local _ .vmem, ⟨28, _⟩ => ⟨S128x256, .f32⟩
  | .local _ .vmem, ⟨29, _⟩ => ⟨S1x128, .f32⟩
  | .local _ .vmem, ⟨30, _⟩ => ⟨S24x128, .f32⟩
  | .local _ .vmem, ⟨31, _⟩ => ⟨S1x24, .f32⟩
  | .local _ .vmem, ⟨32, _⟩ => ⟨S128x24, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_8 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S24x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x24 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x24 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  shapeCasts_S128_S1x128 : S128.ShapeCasts S1x128
  shapeCasts_S24_S1x24 : S24.ShapeCasts S1x24
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S24x128_S24x128_0_0 : ∀ a, (![0, 0] : Fin 2 → Nat) a + S24x128.size a ≤ S24x128.size a
  h_S24x128 : 0 < S24x128.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S128x24 : S1x24.Broadcasts S128x24
  inb_S128x24_S128x24_0_0 : ∀ a, (![0, 0] : Fin 2 → Nat) a + S128x24.size a ≤ S128x24.size a
  h_S128x24 : 0 < S128x24.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S256x64_S2000x256_1_1_0_0_n_n_wf : DotDims.WF S2000x64 S256x64 S2000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_1_0_0_n_n_wf : DotDims.WF S2000x256 S256x256 S2000x256 [1] [1] [0] [0] [] []
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S128x256_S128x128_1_1_0_0_n_n_wf : DotDims.WF S128x256 S128x256 S128x128 [1] [1] [0] [0] [] []
  dot_S128x128_S24x128_S128x24_1_1_0_0_n_n_wf : DotDims.WF S128x128 S24x128 S128x24 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x256.size a ≤ S128x256.size a
  hwx3_0 : ∀ i : grid3.Coords, EltTy.bits .f32 = 32 ∨ (Rect.block (s := S128x256) S128x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S24x128.size a ≤ S24x128.size a
  hwx3_3 : ∀ i : grid3.Coords, EltTy.bits .f32 = 32 ∨ (Rect.block (s := S24x128) S24x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x24.size a ≤ S1x24.size a
  hwx3_4 : ∀ i : grid3.Coords, EltTy.bits .f32 = 32 ∨ (Rect.block (s := S1x24) S1x24.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x24.size a ≤ S128x24.size a
  hwx3_5 : ∀ i : grid3.Coords, EltTy.bits .f32 = 32 ∨ (Rect.block (s := S128x24) S128x24.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S256x64_S2000x256_1_1_0_0_n_n : DotDims S2000x64 S256x64 S2000x256 where
  lhsContracting := [1]
  rhsContracting := [1]
  lhsNonContracting := [0]
  rhsNonContracting := [0]
  lhsBatch := []
  rhsBatch := []
  wf := dot_S2000x64_S256x64_S2000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S128x256_S128x128_1_1_0_0_n_n : DotDims S128x256 S128x256 S128x128 where
  lhsContracting := [1]
  rhsContracting := [1]
  lhsNonContracting := [0]
  rhsNonContracting := [0]
  lhsBatch := []
  rhsBatch := []
  wf := dot_S128x256_S128x256_S128x128_1_1_0_0_n_n_wf
def dot_S128x128_S24x128_S128x24_1_1_0_0_n_n : DotDims S128x128 S24x128 S128x24 where
  lhsContracting := [1]
  rhsContracting := [1]
  lhsNonContracting := [0]
  rhsNonContracting := [0]
  lhsBatch := []
  rhsBatch := []
  wf := dot_S128x128_S24x128_S128x24_1_1_0_0_n_n_wf

abbrev win0_0 : Pipeline.Window sig grid0 :=
  Pipeline.Window.ofSpec (Memref.whole main_v24) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S128x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S24x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x24.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S128x24.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S256x64 : Shape := ⟨2, ![256, 64]⟩
abbrev S256 : Shape := ⟨1, ![256]⟩
abbrev S256x256 : Shape := ⟨2, ![256, 256]⟩
abbrev S128x256 : Shape := ⟨2, ![128, 256]⟩
abbrev S128 : Shape := ⟨1, ![128]⟩
abbrev S24x128 : Shape := ⟨2, ![24, 128]⟩
abbrev S24 : Shape := ⟨1, ![24]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S64x256 : Shape := ⟨2, ![64, 256]⟩
abbrev S50000x256 : Shape := ⟨2, ![50000, 256]⟩
abbrev S1x256 : Shape := ⟨2, ![1, 256]⟩
abbrev S800000x256 : Shape := ⟨2, ![800000, 256]⟩
abbrev S128x1 : Shape := ⟨2, ![128, 1]⟩
abbrev S256x128 : Shape := ⟨2, ![256, 128]⟩
abbrev S128x128 : Shape := ⟨2, ![128, 128]⟩
abbrev S1x128 : Shape := ⟨2, ![1, 128]⟩
abbrev S128x24 : Shape := ⟨2, ![128, 24]⟩
abbrev S1x24 : Shape := ⟨2, ![1, 24]⟩

abbrev nBuf : Space → Nat
  | .hbm => 140
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S256x64, .f32⟩
  | 4 => ⟨S256, .f32⟩
  | 5 => ⟨S256x64, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S128x256, .f32⟩
  | 13 => ⟨S128, .f32⟩
  | 14 => ⟨S24x128, .f32⟩
  | 15 => ⟨S24, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S_, .f32⟩
  | 43 => ⟨S50000x64, .f32⟩
  | 44 => ⟨S800000x1, .i32⟩
  | 45 => ⟨S50000x64, .f32⟩
  | 46 => ⟨S50000x64, .f32⟩
  | 47 => ⟨S50000x64, .f32⟩
  | 48 => ⟨S64x256, .f32⟩
  | 49 => ⟨S50000x256, .f32⟩
  | 50 => ⟨S1x256, .f32⟩
  | 51 => ⟨S50000x256, .f32⟩
  | 52 => ⟨S50000x256, .f32⟩
  | 53 => ⟨S64x256, .f32⟩
  | 54 => ⟨S50000x256, .f32⟩
  | 55 => ⟨S50000x256, .f32⟩
  | 56 => ⟨S_, .f32⟩
  | 57 => ⟨S50000x256, .f32⟩
  | 58 => ⟨S50000x256, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x256, .f32⟩
  | 68 => ⟨S_, .f32⟩
  | 69 => ⟨S50000x256, .f32⟩
  | 70 => ⟨S800000x1, .i32⟩
  | 71 => ⟨S50000x256, .f32⟩
  | 72 => ⟨S50000x256, .f32⟩
  | 73 => ⟨S50000x256, .f32⟩
  | 74 => ⟨S256x256, .f32⟩
  | 75 => ⟨S50000x256, .f32⟩
  | 76 => ⟨S1x256, .f32⟩
  | 77 => ⟨S50000x256, .f32⟩
  | 78 => ⟨S50000x256, .f32⟩
  | 79 => ⟨S256x256, .f32⟩
  | 80 => ⟨S50000x256, .f32⟩
  | 81 => ⟨S50000x256, .f32⟩
  | 82 => ⟨S_, .f32⟩
  | 83 => ⟨S50000x256, .f32⟩
  | 84 => ⟨S50000x256, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x256, .f32⟩
  | 94 => ⟨S_, .f32⟩
  | 95 => ⟨S50000x256, .f32⟩
  | 96 => ⟨S800000x1, .i32⟩
  | 97 => ⟨S50000x256, .f32⟩
  | 98 => ⟨S50000x256, .f32⟩
  | 99 => ⟨S50000x256, .f32⟩
  | 100 => ⟨S256x256, .f32⟩
  | 101 => ⟨S50000x256, .f32⟩
  | 102 => ⟨S1x256, .f32⟩
  | 103 => ⟨S50000x256, .f32⟩
  | 104 => ⟨S50000x256, .f32⟩
  | 105 => ⟨S256x256, .f32⟩
  | 106 => ⟨S50000x256, .f32⟩
  | 107 => ⟨S50000x256, .f32⟩
  | 108 => ⟨S_, .f32⟩
  | 109 => ⟨S50000x256, .f32⟩
  | 110 => ⟨S50000x256, .f32⟩
  | 111 => ⟨S_, .f32⟩
  | 112 => ⟨S128x256, .f32⟩
  | 113 => ⟨S50000x1, .i32⟩
  | 114 => ⟨S128x256, .f32⟩
  | 115 => ⟨S_, .f32⟩
  | 116 => ⟨S50000, .f32⟩
  | 117 => ⟨S_, .f32⟩
  | 118 => ⟨S128, .f32⟩
  | 119 => ⟨S50000x1, .i32⟩
  | 120 => ⟨S128, .f32⟩
  | 121 => ⟨S_, .f32⟩
  | 122 => ⟨S128, .f32⟩
  | 123 => ⟨S128, .f32⟩
  | 124 => ⟨S128x1, .f32⟩
  | 125 => ⟨S128x256, .f32⟩
  | 126 => ⟨S128x256, .f32⟩
  | 127 => ⟨S256x128, .f32⟩
  | _ => ⟨S50000x64, .f32⟩

abbrev hbmTy0_1 (i : Nat) : BufTy := match i % 128 with
  | 0 => ⟨S128x128, .f32⟩
  | 1 => ⟨S1x128, .f32⟩
  | 2 => ⟨S128x128, .f32⟩
  | 3 => ⟨S128x128, .f32⟩
  | 4 => ⟨S_, .f32⟩
  | 5 => ⟨S128x128, .f32⟩
  | 6 => ⟨S128x128, .f32⟩
  | 7 => ⟨S128x24, .f32⟩
  | 8 => ⟨S128x24, .f32⟩
  | 9 => ⟨S1x24, .f32⟩
  | 10 => ⟨S128x24, .f32⟩
  | 11 => ⟨S128x24, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call0_cst : Ref sig .tc := ⟨.hbm, 56, rfl⟩
abbrev main_call0_v0 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call1_cst : Ref sig .tc := ⟨.hbm, 82, rfl⟩
abbrev main_call1_v0 : Ref sig .tc := ⟨.hbm, 83, rfl⟩
abbrev main_v54 : Ref sig .tc := ⟨.hbm, 84, rfl⟩
abbrev main_c_8 : Ref sig .tc := ⟨.hbm, 85, rfl⟩
abbrev main_v55 : Ref sig .tc := ⟨.hbm, 86, rfl⟩
abbrev main_v56 : Ref sig .tc := ⟨.hbm, 87, rfl⟩
abbrev main_c_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call2_cst : Ref sig .tc := ⟨.hbm, 108, rfl⟩
abbrev main_call2_v0 : Ref sig .tc := ⟨.hbm, 109, rfl⟩
abbrev main_v75 : Ref sig .tc := ⟨.hbm, 110, rfl⟩
abbrev main_cst_11 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_12 : Ref sig .tc := ⟨.hbm, 115, rfl⟩
abbrev main_v79 : Ref sig .tc := ⟨.hbm, 116, rfl⟩
abbrev main_cst_13 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_14 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_call3_cst : Ref sig .tc := ⟨.hbm, 132, rfl⟩
abbrev main_call3_v0 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S256x64_S64x256_1_0 : S256x64.Transposes [1, 0] S64x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  transposes_S128x256_S256x128_1_0 : S128x256.Transposes [1, 0] S256x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  transposes_S24x128_S128x24_1_0 : S24x128.Transposes [1, 0] S128x24
  bcast_S24_S1x24_1 : S24.BroadcastsInDim S1x24 (![1] : Fin 1 → Fin S1x24.rank)
  bcast_S1x24_S128x24_0_1 : S1x24.BroadcastsInDim S128x24 (![0, 1] : Fin 2 → Fin S128x24.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x256_S50000x256_1_0_0_1_n_n_wf : DotDims.WF S50000x64 S64x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S256x128_S128x128_1_0_0_1_n_n_wf : DotDims.WF S128x256 S256x128 S128x128 [1] [0] [0] [1] [] []
  dot_S128x128_S128x24_S128x24_1_0_0_1_n_n_wf : DotDims.WF S128x128 S128x24 S128x24 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x24_S128x24_1_0_0_1_n_n : DotDims S128x128 S128x24 S128x24 where
  lhsContracting := [1]
  rhsContracting := [0]
  lhsNonContracting := [0]
  rhsNonContracting := [1]
  lhsBatch := []
  rhsBatch := []
  wf := dot_S128x128_S128x24_S128x24_1_0_0_1_n_n_wf

class Facts : Prop extends Facts₀ where

variable [Facts]
-- ==== Proof.Spec.lean ====
/-
  What both programs compute, written once.

  A three-layer mean-aggregating graph network followed by a mean pool over graphs and a two-layer head.
  For node features `h` [50000, K], an edge list `e` [2, 800000] (row 0 the source, row 1 the target of each
  edge) the aggregate of node `i` is the sum of `h` over the sources of the edges into `i`, divided by
  `max (indegree i) 1`; a negative source id is wrapped round once by the node count. A layer then maps row `r`
  to `max ((agg_r · wl_q + h_r · wr_q) + b_q) 0` for each of its 256 outputs `q` (the dot products over the K
  features). The pooled value of graph `g` is the sum of the last layer's rows whose graph id is `g`, divided by
  `max (size g) 1`; the head is `max (p · w1_k + c1_k) 0` over 128 hidden units followed by `· w2_q + c2_q`.

  The gather, the two scatter-sums and the divisions are the SAME host operations in both programs, so they are
  kept here as the operations themselves (`aggregate…`, `pooled`): the proof never opens them. Only the dense
  parts differ between the programs (which sum is added to the bias first; blocks of 2000 rows against whole
  arrays), and those are stated entry by entry.
-/
import proofs.«135992_j24670292149153_1_alg».proof.Proof.Gen.KernelIdeal
import Idealize.ShloMosaic.Lib.ValueIdx
import Idealize.ShloMosaic.PureOps.Ideal

noncomputable section

namespace Cert.Sage

open Idealize.ShloMosaic Idealize.ShloMosaic.ValueIdx Cert.KernelIdeal Cert.KernelIdeal.Facts₀

/-! ## The graph side: the operations both programs share -/

/-- Row 0 of the edge list: each edge's source node. -/
def sourceRow (e : IVec S2x800000 32) : IVec S800000 32 :=
  shapeCast S800000 (extractStridedSlice S1x800000 ![0, 0] e slices_S2x800000_S1x800000_0_0) shapeCasts_S1x800000_S800000

/-- Row 1 of the edge list: each edge's target node. -/
def targetRow (e : IVec S2x800000 32) : IVec S800000 32 :=
  shapeCast S800000 (extractStridedSlice S1x800000 ![1, 0] e slices_S2x800000_S1x800000_1_0) shapeCasts_S1x800000_S800000

/-- The targets as an index column. -/
def targetCol (e : IVec S2x800000 32) : IVec S800000x1 32 :=
  broadcastInDim S800000x1 ![0] bcast_S800000_S800000x1_0 (targetRow e)

/-- The sources as an index column, a negative id wrapped round once by the node count. -/
def sourceCol (e : IVec S2x800000 32) : IVec S800000x1 32 :=
  broadcastInDim S800000x1 ![0] bcast_S800000_S800000x1_0
    (select (cmpi .slt (sourceRow e) (broadcastInDim S800000 ![] bcast_S_S800000 (constantI S_ 32 0#32)))
      (addi (sourceRow e) (broadcastInDim S800000 ![] bcast_S_S800000 (constantI S_ 32 50000#32)))
      (sourceRow e))

/-- `1 / max (indegree) 1` per node, as a column. -/
def invDegree (e : IVec S2x800000 32) : FVec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf
        (Host.scatterAdd (F := Ideal) scatter_S50000_S800000x1_S800000_n_0_0_1
          (broadcastInDim S50000 ![] bcast_S_S50000 (constant (F := Ideal) S_ .f32 0x00000000#32))
          (targetCol e)
          (broadcastInDim S800000 ![] bcast_S_S800000 (constant (F := Ideal) S_ .f32 0x3F800000#32)))
        (broadcastInDim S50000 ![] bcast_S_S50000 (constant (F := Ideal) S_ .f32 0x3F800000#32))))

/-- The mean over incoming edges of 64-wide node features. -/
def aggregate64 (h : FVec Ideal S50000x64 .f32) (e : IVec S2x800000 32) : FVec Ideal S50000x64 .f32 :=
  mulf
    (Host.scatterAdd (F := Ideal) scatter_S50000x64_S800000x1_S800000x64_1_0_0_1
      (broadcastInDim S50000x64 ![] bcast_S_S50000x64 (constant (F := Ideal) S_ .f32 0x00000000#32))
      (targetCol e)
      (Host.gather gather_S50000x64_S800000x1_S800000x64_1_0_n_n_0_1_164 h (sourceCol e)))
    (broadcastInDim S50000x64 ![0, 1] bcast_S50000x1_S50000x64_0_1 (invDegree e))

/-- The mean over incoming edges of 256-wide node features. -/
def aggregate256 (h : FVec Ideal S50000x256 .f32) (e : IVec S2x800000 32) : FVec Ideal S50000x256 .f32 :=
  mulf
    (Host.scatterAdd (F := Ideal) scatter_S50000x256_S800000x1_S800000x256_1_0_0_1
      (broadcastInDim S50000x256 ![] bcast_S_S50000x256 (constant (F := Ideal) S_ .f32 0x00000000#32))
      (targetCol e)
      (Host.gather gather_S50000x256_S800000x1_S800000x256_1_0_n_n_0_1_1256 h (sourceCol e)))
    (broadcastInDim S50000x256 ![0, 1] bcast_S50000x1_S50000x256_0_1 (invDegree e))

/-- The mean of the node rows of each graph. -/
def pooled (h : FVec Ideal S50000x256 .f32) (g : IVec S50000 32) : FVec Ideal S128x256 .f32 :=
  Host.divf (F := Ideal)
    (Host.scatterAdd (F := Ideal) scatter_S128x256_S50000x1_S50000x256_1_0_0_1
      (broadcastInDim S128x256 ![] bcast_S_S128x256 (constant (F := Ideal) S_ .f32 0x00000000#32))
      (broadcastInDim S50000x1 ![0] bcast_S50000_S50000x1_0 g)
      h)
    (broadcastInDim S128x256 ![0, 1] bcast_S128x1_S128x256_0_1
      (broadcastInDim S128x1 ![0] bcast_S128_S128x1_0
        (maximumf
          (Host.scatterAdd (F := Ideal) scatter_S128_S50000x1_S50000_n_0_0_1
            (broadcastInDim S128 ![] bcast_S_S128 (constant (F := Ideal) S_ .f32 0x00000000#32))
            (broadcastInDim S50000x1 ![0] bcast_S50000_S50000x1_0 g)
            (broadcastInDim S50000 ![] bcast_S_S50000 (constant (F := Ideal) S_ .f32 0x3F800000#32)))
          (broadcastInDim S128 ![] bcast_S_S128 (constant (F := Ideal) S_ .f32 0x3F800000#32)))))

/-! ## The dense side, entry by entry -/

/-- Row `r` of `x` against row `q` of `w`: one entry of `x · wᵀ`. -/
def rowDot {N M K : Nat} (x : (⟨2, ![N, K]⟩ : Shape).Idx → EReal) (w : (⟨2, ![M, K]⟩ : Shape).Idx → EReal)
    (r : Fin N) (q : Fin M) : EReal :=
  ∑ k : Fin K, x (ix2 r k) * w (ix2 q k)

/-- The threshold of the rectifier: the float zero. -/
abbrev zeroF : EReal := Ideal.ofBits .f32 0x00000000#32

/-- One entry of a layer: the two products summed, then the bias, then the rectifier. -/
def layerAt {K : Nat} (agg h : (⟨2, ![50000, K]⟩ : Shape).Idx → EReal) (wl wr : (⟨2, ![256, K]⟩ : Shape).Idx → EReal)
    (b : Fin 256 → EReal) (r : Fin 50000) (q : Fin 256) : EReal :=
  max ((rowDot agg wl r q + rowDot h wr r q) + b q) zeroF

/-- A layer's whole output [50000, 256]. -/
def layer {K : Nat} (agg h : (⟨2, ![50000, K]⟩ : Shape).Idx → EReal) (wl wr : (⟨2, ![256, K]⟩ : Shape).Idx → EReal)
    (b : Fin 256 → EReal) : FVec Ideal S50000x256 .f32 :=
  fun i => layerAt agg h wl wr b ⟨(i 0).val, idx2_lt0 i⟩ ⟨(i 1).val, idx2_lt1 i⟩

/-- One hidden unit of the head. -/
def hiddenAt (p : FVec Ideal S128x256 .f32) (w1 : FVec Ideal S128x256 .f32) (c1 : Fin 128 → EReal)
    (r : Fin 128) (k : Fin 128) : EReal :=
  max (rowDot p w1 r k + c1 k) zeroF

/-- One entry of the head's output. -/
def headAt (p : FVec Ideal S128x256 .f32) (w1 : FVec Ideal S128x256 .f32) (c1 : Fin 128 → EReal)
    (w2 : FVec Ideal S24x128 .f32) (c2 : Fin 24 → EReal) (r : Fin 128) (q : Fin 24) : EReal :=
  (∑ k : Fin 128, hiddenAt p w1 c1 r k * w2 (ix2 q k)) + c2 q

/-- The head's whole output [128, 24]. -/
def head (p : FVec Ideal S128x256 .f32) (w1 : FVec Ideal S128x256 .f32) (c1 : Fin 128 → EReal)
    (w2 : FVec Ideal S24x128 .f32) (c2 : Fin 24 → EReal) : FVec Ideal S128x24 .f32 :=
  fun i => headAt p w1 c1 w2 c2 ⟨(i 0).val, idx2_lt0 i⟩ ⟨(i 1).val, idx2_lt1 i⟩

/-! ## The network -/

/-- The first layer's output. -/
def hidden1 (x : FVec Ideal S50000x64 .f32) (e : IVec S2x800000 32)
    (w1l : FVec Ideal S256x64 .f32) (b1 : FVec Ideal S256 .f32) (w1r : FVec Ideal S256x64 .f32) : FVec Ideal S50000x256 .f32 :=
  layer (aggregate64 x e) x w1l w1r (fun q => b1 (ix1 q))

/-- A 256-wide layer's output from the previous layer's. -/
def hiddenNext (h : FVec Ideal S50000x256 .f32) (e : IVec S2x800000 32)
    (wl : FVec Ideal S256x256 .f32) (b : FVec Ideal S256 .f32) (wr : FVec Ideal S256x256 .f32) : FVec Ideal S50000x256 .f32 :=
  layer (aggregate256 h e) h wl wr (fun q => b (ix1 q))

/-- The whole network's output [128, 24] as one function of the sixteen arguments. -/
def network (x : FVec Ideal S50000x64 .f32) (e : IVec S2x800000 32) (g : IVec S50000 32)
    (w1l : FVec Ideal S256x64 .f32) (b1 : FVec Ideal S256 .f32) (w1r : FVec Ideal S256x64 .f32)
    (w2l : FVec Ideal S256x256 .f32) (b2 : FVec Ideal S256 .f32) (w2r : FVec Ideal S256x256 .f32)
    (w3l : FVec Ideal S256x256 .f32) (b3 : FVec Ideal S256 .f32) (w3r : FVec Ideal S256x256 .f32)
    (u1 : FVec Ideal S128x256 .f32) (c1 : FVec Ideal S128 .f32) (u2 : FVec Ideal S24x128 .f32) (c2 : FVec Ideal S24 .f32) :
    FVec Ideal S128x24 .f32 :=
  head (pooled (hiddenNext (hiddenNext (hidden1 x e w1l b1 w1r) e w2l b2 w2r) e w3l b3 w3r) g)
    u1 (fun k => c1 (ix1 k)) u2 (fun q => c2 (ix1 q))

end Cert.Sage

end
-- ==== Proof.KHost.lean ====
/-
  The host stretches between the regions, read at the buffers the regions take in.

  Before the first region the host computes, from the edge list alone, the source and target rows and
  `1 / max (indegree) 1`; these stay in their buffers for the whole run, since no later operation and no region
  writes them. Before each layer's region it gathers the previous features along the (wrapped) sources, sums them
  into the targets and scales by the inverse degree: the aggregate. Before the head it pools the last layer's rows by
  graph. Each of these is the specification's operation of the same name applied to the buffer contents at the
  stretch's entry, by reading the stretch operation by operation. An argument array that nothing has written yet
  still holds its launch contents.
-/
import proofs.«135992_j24670292149153_1_alg».proof.Proof.Gen.KernelIdeal.Frame
import proofs.«135992_j24670292149153_1_alg».proof.Proof.Spec
import Idealize.ShloMosaic.Lib.StableHlo.Run
import Idealize.ShloMosaic.Lib.ValueIdx
import Idealize.ShloMosaic.Lib.ValueLayout

set_option maxRecDepth 16384

noncomputable section

namespace Cert.Sage.Host

open Idealize.ShloMosaic Idealize.ShloMosaic.TcCoe Idealize.ShloMosaic.ValueIdx Idealize.SL.Sem
open Idealize.ShloMosaic.StableHlo
open Cert.KernelIdeal Cert.KernelIdeal.Facts₀ Cert.KernelIdeal.Gen

variable (m : (ℓ : Loc nD τ sig) → Buf (Elt Ideal) ℓ) (ρ : Dev nD → PrngReg) (c : Dev nD)

/-- No operation of the stretch writes the buffer: decided operation by operation. -/
local macro "unwritten" : tactic => `(tactic| (
  refine List.forall_iff_forall_mem.mp ?_
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## A buffer nothing has written yet holds its launch contents -/

section Kept
variable (b : Ref sig .tc)
variable (g0 : ∀ op ∈ (hostOps0 : List (HloOp τ sig (Elt Ideal))), Proc.devRef .tc b ∉ op.writes)
variable (r0 : ∀ w, Pipeline.arrRef spec0 w ≠ b)
variable (g1 : ∀ op ∈ (hostOps1 : List (HloOp τ sig (Elt Ideal))), Proc.devRef .tc b ∉ op.writes)
variable (r1 : ∀ w, Pipeline.arrRef spec1 w ≠ b)
variable (g2 : ∀ op ∈ (hostOps2 : List (HloOp τ sig (Elt Ideal))), Proc.devRef .tc b ∉ op.writes)
variable (r2 : ∀ w, Pipeline.arrRef spec2 w ≠ b)
variable (g3 : ∀ op ∈ (hostOps3 : List (HloOp τ sig (Elt Ideal))), Proc.devRef .tc b ∉ op.writes)

include g0 in
theorem kept1 : W1 m ρ c (Proc.devRef .tc b) = m ((c : Thread nD τ).loc b) :=
  StableHlo.after_of_forall_not_mem (b := Proc.devRef .tc b) _ _ g0
include g0 r0 in
theorem kept2 : W2 m ρ c (Proc.devRef .tc b) = m ((c : Thread nD τ).loc b) :=
  (W2_of_ne m ρ c b r0).trans (kept1 m ρ c b g0)
include g0 r0 g1 in
theorem kept3 : W3 m ρ c (Proc.devRef .tc b) = m ((c : Thread nD τ).loc b) :=
  (StableHlo.after_of_forall_not_mem (b := Proc.devRef .tc b) _ _ g1).trans (kept2 m ρ c b g0 r0)
include g0 r0 g1 r1 in
theorem kept4 : W4 m ρ c (Proc.devRef .tc b) = m ((c : Thread nD τ).loc b) :=
  (W4_of_ne m ρ c b r1).trans (kept3 m ρ c b g0 r0 g1)
include g0 r0 g1 r1 g2 in
theorem kept5 : W5 m ρ c (Proc.devRef .tc b) = m ((c : Thread nD τ).loc b) :=
  (StableHlo.after_of_forall_not_mem (b := Proc.devRef .tc b) _ _ g2).trans (kept4 m ρ c b g0 r0 g1 r1)
include g0 r0 g1 r1 g2 r2 in
theorem kept6 : W6 m ρ c (Proc.devRef .tc b) = m ((c : Thread nD τ).loc b) :=
  (W6_of_ne m ρ c b r2).trans (kept5 m ρ c b g0 r0 g1 r1 g2)
include g0 r0 g1 r1 g2 r2 g3 in
theorem kept7 : W7 m ρ c (Proc.devRef .tc b) = m ((c : Thread nD τ).loc b) :=
  (StableHlo.after_of_forall_not_mem (b := Proc.devRef .tc b) _ _ g3).trans (kept6 m ρ c b g0 r0 g1 r1 g2 r2)

/-! A buffer the first stretch fills and nothing writes afterwards keeps what that stretch left. -/

include r0 in
theorem carried2 : W2 m ρ c (Proc.devRef .tc b) = W1 m ρ c (Proc.devRef .tc b) := W2_of_ne m ρ c b r0
include r0 g1 r1 in
theorem carried4 : W4 m ρ c (Proc.devRef .tc b) = W1 m ρ c (Proc.devRef .tc b) :=
  (W4_of_ne m ρ c b r1).trans ((StableHlo.after_of_forall_not_mem (b := Proc.devRef .tc b) _ _ g1).trans (W2_of_ne m ρ c b r0))

end Kept

/-! ## Before the first region -/

theorem sourceRow_1 : W1 m ρ c (Proc.devRef .tc main_v1) = Sage.sourceRow (m ((c : Thread nD τ).loc main_arg1)) := by
  show StableHlo.after hostOps0 (W0 m ρ c) (Proc.devRef .tc main_v1) = _
  dsimp only [hostOps0]
  after_results
  rfl

theorem targetRow_1 : W1 m ρ c (Proc.devRef .tc main_v3) = Sage.targetRow (m ((c : Thread nD τ).loc main_arg1)) := by
  show StableHlo.after hostOps0 (W0 m ρ c) (Proc.devRef .tc main_v3) = _
  dsimp only [hostOps0]
  after_results
  rfl

theorem invDegree_1 : W1 m ρ c (Proc.devRef .tc main_v12) = Sage.invDegree (m ((c : Thread nD τ).loc main_arg1)) := by
  show StableHlo.after hostOps0 (W0 m ρ c) (Proc.devRef .tc main_v12) = _
  dsimp only [hostOps0]
  after_results
  rfl

set_option maxHeartbeats 1600000 in
/-- The first layer's aggregate: of the node features as launched. -/
theorem aggregate_1 : W1 m ρ c (Proc.devRef .tc main_v24) = Sage.aggregate64 (m ((c : Thread nD τ).loc main_arg0)) (m ((c : Thread nD τ).loc main_arg1)) := by
  show StableHlo.after hostOps0 (W0 m ρ c) (Proc.devRef .tc main_v24) = _
  dsimp only [hostOps0]
  after_results
  rfl

/-- The first layer's bias as a row: entry (0, q) is entry q of the bias vector. -/
theorem bias_1 (q : Fin 256) :
    (W1 m ρ c (Proc.devRef .tc main_v25) : FVec Ideal S1x256 .f32) (ix2 0 q) = (m ((c : Thread nD τ).loc main_arg4) : FVec Ideal S256 .f32) (ix1 q) := by
  have e : (W1 m ρ c (Proc.devRef .tc main_v25) : FVec Ideal S1x256 .f32)
      = shapeCast S1x256 (m ((c : Thread nD τ).loc main_arg4) : FVec Ideal S256 .f32) Facts₀.shapeCasts_S256_S1x256 := by
    show StableHlo.after hostOps0 (W0 m ρ c) (Proc.devRef .tc main_v25) = _
    dsimp only [hostOps0]
    after_results
    rfl
  rw [e]
  exact shapeCast_a_1a_apply _ _ 0 q

/-! ## Before the second region -/

set_option maxHeartbeats 1600000 in
/-- The second layer's aggregate: of what the first region left. -/
theorem aggregate_3 : W3 m ρ c (Proc.devRef .tc main_v38) = Sage.aggregate256 (W2 m ρ c (Proc.devRef .tc main_v26)) (m ((c : Thread nD τ).loc main_arg1)) := by
  show StableHlo.after hostOps1 (W2 m ρ c) (Proc.devRef .tc main_v38) = _
  dsimp only [hostOps1]
  after_results
  rw [carried2 m ρ c main_v1 (by decide), carried2 m ρ c main_v3 (by decide), carried2 m ρ c main_v12 (by decide),
    sourceRow_1, targetRow_1, invDegree_1]
  rfl

theorem features_3 : W3 m ρ c (Proc.devRef .tc main_v26) = W2 m ρ c (Proc.devRef .tc main_v26) := by
  show StableHlo.after hostOps1 (W2 m ρ c) (Proc.devRef .tc main_v26) = _
  dsimp only [hostOps1]
  after_results

theorem bias_3 (q : Fin 256) :
    (W3 m ρ c (Proc.devRef .tc main_v39) : FVec Ideal S1x256 .f32) (ix2 0 q) = (m ((c : Thread nD τ).loc main_arg7) : FVec Ideal S256 .f32) (ix1 q) := by
  have e : (W3 m ρ c (Proc.devRef .tc main_v39) : FVec Ideal S1x256 .f32)
      = shapeCast S1x256 (m ((c : Thread nD τ).loc main_arg7) : FVec Ideal S256 .f32) Facts₀.shapeCasts_S256_S1x256 := by
    show StableHlo.after hostOps1 (W2 m ρ c) (Proc.devRef .tc main_v39) = _
    dsimp only [hostOps1]
    after_results
    rw [kept2 m ρ c main_arg7 (by unwritten) (by decide)]
    rfl
  rw [e]
  exact shapeCast_a_1a_apply _ _ 0 q

/-! ## Before the third region -/

set_option maxHeartbeats 1600000 in
theorem aggregate_5 : W5 m ρ c (Proc.devRef .tc main_v52) = Sage.aggregate256 (W4 m ρ c (Proc.devRef .tc main_v40)) (m ((c : Thread nD τ).loc main_arg1)) := by
  show StableHlo.after hostOps2 (W4 m ρ c) (Proc.devRef .tc main_v52) = _
  dsimp only [hostOps2]
  after_results
  rw [carried4 m ρ c main_v1 (by decide) (by unwritten) (by decide), carried4 m ρ c main_v3 (by decide) (by unwritten) (by decide),
    carried4 m ρ c main_v12 (by decide) (by unwritten) (by decide), sourceRow_1, targetRow_1, invDegree_1]
  rfl

theorem features_5 : W5 m ρ c (Proc.devRef .tc main_v40) = W4 m ρ c (Proc.devRef .tc main_v40) := by
  show StableHlo.after hostOps2 (W4 m ρ c) (Proc.devRef .tc main_v40) = _
  dsimp only [hostOps2]
  after_results

theorem bias_5 (q : Fin 256) :
    (W5 m ρ c (Proc.devRef .tc main_v53) : FVec Ideal S1x256 .f32) (ix2 0 q) = (m ((c : Thread nD τ).loc main_arg10) : FVec Ideal S256 .f32) (ix1 q) := by
  have e : (W5 m ρ c (Proc.devRef .tc main_v53) : FVec Ideal S1x256 .f32)
      = shapeCast S1x256 (m ((c : Thread nD τ).loc main_arg10) : FVec Ideal S256 .f32) Facts₀.shapeCasts_S256_S1x256 := by
    show StableHlo.after hostOps2 (W4 m ρ c) (Proc.devRef .tc main_v53) = _
    dsimp only [hostOps2]
    after_results
    rw [kept4 m ρ c main_arg10 (by unwritten) (by decide) (by unwritten) (by decide)]
    rfl
  rw [e]
  exact shapeCast_a_1a_apply _ _ 0 q

/-! ## Before the head -/

set_option maxHeartbeats 1600000 in
/-- The pooled features: of what the third region left, by the graph ids as launched. -/
theorem pooled_7 : W7 m ρ c (Proc.devRef .tc main_v66) = Sage.pooled (W6 m ρ c (Proc.devRef .tc main_v54)) (m ((c : Thread nD τ).loc main_arg2)) := by
  show StableHlo.after hostOps3 (W6 m ρ c) (Proc.devRef .tc main_v66) = _
  dsimp only [hostOps3]
  after_results
  rw [kept6 m ρ c main_arg2 (by unwritten) (by decide) (by unwritten) (by decide) (by unwritten) (by decide)]
  rfl

theorem bias_7a (k : Fin 128) :
    (W7 m ρ c (Proc.devRef .tc main_v67) : FVec Ideal S1x128 .f32) (ix2 0 k) = (m ((c : Thread nD τ).loc main_arg13) : FVec Ideal S128 .f32) (ix1 k) := by
  have e : (W7 m ρ c (Proc.devRef .tc main_v67) : FVec Ideal S1x128 .f32)
      = shapeCast S1x128 (m ((c : Thread nD τ).loc main_arg13) : FVec Ideal S128 .f32) Facts₀.shapeCasts_S128_S1x128 := by
    show StableHlo.after hostOps3 (W6 m ρ c) (Proc.devRef .tc main_v67) = _
    dsimp only [hostOps3]
    after_results
    rw [kept6 m ρ c main_arg13 (by unwritten) (by decide) (by unwritten) (by decide) (by unwritten) (by decide)]
    rfl
  rw [e]
  exact shapeCast_a_1a_apply _ _ 0 k

theorem bias_7b (q : Fin 24) :
    (W7 m ρ c (Proc.devRef .tc main_v68) : FVec Ideal S1x24 .f32) (ix2 0 q) = (m ((c : Thread nD τ).loc main_arg15) : FVec Ideal S24 .f32) (ix1 q) := by
  have e : (W7 m ρ c (Proc.devRef .tc main_v68) : FVec Ideal S1x24 .f32)
      = shapeCast S1x24 (m ((c : Thread nD τ).loc main_arg15) : FVec Ideal S24 .f32) Facts₀.shapeCasts_S24_S1x24 := by
    show StableHlo.after hostOps3 (W6 m ρ c) (Proc.devRef .tc main_v68) = _
    dsimp only [hostOps3]
    after_results
    rw [kept6 m ρ c main_arg15 (by unwritten) (by decide) (by unwritten) (by decide) (by unwritten) (by decide)]
    rfl
  rw [e]
  exact shapeCast_a_1a_apply _ _ 0 q

/-! ## Weights that nothing has written hold their launch contents where their region reads them -/

theorem arg0_1 : W1 m ρ c (Proc.devRef .tc main_arg0) = m ((c : Thread nD τ).loc main_arg0) := kept1 m ρ c main_arg0 (by unwritten)
theorem arg3_1 : W1 m ρ c (Proc.devRef .tc main_arg3) = m ((c : Thread nD τ).loc main_arg3) := kept1 m ρ c main_arg3 (by unwritten)
theorem arg5_1 : W1 m ρ c (Proc.devRef .tc main_arg5) = m ((c : Thread nD τ).loc main_arg5) := kept1 m ρ c main_arg5 (by unwritten)
theorem arg6_3 : W3 m ρ c (Proc.devRef .tc main_arg6) = m ((c : Thread nD τ).loc main_arg6) := kept3 m ρ c main_arg6 (by unwritten) (by decide) (by unwritten)
theorem arg8_3 : W3 m ρ c (Proc.devRef .tc main_arg8) = m ((c : Thread nD τ).loc main_arg8) := kept3 m ρ c main_arg8 (by unwritten) (by decide) (by unwritten)
theorem arg9_5 : W5 m ρ c (Proc.devRef .tc main_arg9) = m ((c : Thread nD τ).loc main_arg9) :=
  kept5 m ρ c main_arg9 (by unwritten) (by decide) (by unwritten) (by decide) (by unwritten)
theorem arg11_5 : W5 m ρ c (Proc.devRef .tc main_arg11) = m ((c : Thread nD τ).loc main_arg11) :=
  kept5 m ρ c main_arg11 (by unwritten) (by decide) (by unwritten) (by decide) (by unwritten)
theorem arg12_7 : W7 m ρ c (Proc.devRef .tc main_arg12) = m ((c : Thread nD τ).loc main_arg12) :=
  kept7 m ρ c main_arg12 (by unwritten) (by decide) (by unwritten) (by decide) (by unwritten) (by decide) (by unwritten)
theorem arg14_7 : W7 m ρ c (Proc.devRef .tc main_arg14) = m ((c : Thread nD τ).loc main_arg14) :=
  kept7 m ρ c main_arg14 (by unwritten) (by decide) (by unwritten) (by decide) (by unwritten) (by decide) (by unwritten)

end Cert.Sage.Host

end
-- ==== Proof.Pay0.lean ====
/-
  The first layer's kernel body: what it stores, read at one entry of the 2000-row block.
-/
import proofs.«135992_j24670292149153_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Pay0

open Idealize.ShloMosaic Idealize.ShloMosaic.ValueIdx
open Cert.KernelIdeal Cert.KernelIdeal.Facts₀ Cert.KernelIdeal.Gen

/-! ## The matrix unit's product at an entry

  The product contracts axis 1 of both operands: entry (r, q) of the result reads row r of the left operand
  and row q of the right one. -/

theorem lhs_row (i : S2000x256.Idx) (p : dot_S2000x64_S256x64_S2000x256_1_1_0_0_n_n.contr.Idx) :
    (dot_S2000x64_S256x64_S2000x256_1_1_0_0_n_n.lhsIdx i p 0).val = (i 0).val := by
  unfold DotDims.lhsIdx
  rw [dif_neg (show ¬(0 : Fin S2000x64.rank) ∈ dot_S2000x64_S256x64_S2000x256_1_1_0_0_n_n.lhsBatch by decide), dif_pos (show (0 : Fin S2000x64.rank) ∈ dot_S2000x64_S256x64_S2000x256_1_1_0_0_n_n.lhsNonContracting by decide)]
  rfl
theorem lhs_col (i : S2000x256.Idx) (p : dot_S2000x64_S256x64_S2000x256_1_1_0_0_n_n.contr.Idx) :
    (dot_S2000x64_S256x64_S2000x256_1_1_0_0_n_n.lhsIdx i p 1).val = (p ⟨0, by decide⟩).val :=
  dot_S2000x64_S256x64_S2000x256_1_1_0_0_n_n.lhsIdx_val_of_single rfl i p
theorem rhs_row (i : S2000x256.Idx) (p : dot_S2000x64_S256x64_S2000x256_1_1_0_0_n_n.contr.Idx) :
    (dot_S2000x64_S256x64_S2000x256_1_1_0_0_n_n.rhsIdx i p 0).val = (i 1).val := by
  unfold DotDims.rhsIdx
  rw [dif_neg (show ¬(0 : Fin S256x64.rank) ∈ dot_S2000x64_S256x64_S2000x256_1_1_0_0_n_n.rhsBatch by decide), dif_pos (show (0 : Fin S256x64.rank) ∈ dot_S2000x64_S256x64_S2000x256_1_1_0_0_n_n.rhsNonContracting by decide)]
  rfl
theorem rhs_col (i : S2000x256.Idx) (p : dot_S2000x64_S256x64_S2000x256_1_1_0_0_n_n.contr.Idx) :
    (dot_S2000x64_S256x64_S2000x256_1_1_0_0_n_n.rhsIdx i p 1).val = (p ⟨0, by decide⟩).val :=
  dot_S2000x64_S256x64_S2000x256_1_1_0_0_n_n.rhsIdx_val_of_single rfl i p

/-- Into a zero accumulator the product's entry (r, q) is the dot product of row r and row q. -/
theorem product_at (a : FVec Ideal S2000x64 .bf16) (w : FVec Ideal S256x64 .bf16) (r : Fin 2000) (q : Fin 256) :
    matmul dot_S2000x64_S256x64_S2000x256_1_1_0_0_n_n none a w (constant S2000x256 .f32 0x00000000#32) (ix2 r q)
      = ∑ k : Fin 64, a (ix2 r k) * w (ix2 q k) := by
  refine (Ideal.matmul_constant_zero_apply dot_S2000x64_S256x64_S2000x256_1_1_0_0_n_n none a w (ix2 r q)).trans ?_
  rw [← Equiv.sum_comp (contrEquiv1 dot_S2000x64_S256x64_S2000x256_1_1_0_0_n_n 64 rfl rfl).symm]
  refine Finset.sum_congr rfl fun k _ => ?_
  have hk := contrEquiv1_symm_val dot_S2000x64_S256x64_S2000x256_1_1_0_0_n_n 64 rfl rfl k
  have el : dot_S2000x64_S256x64_S2000x256_1_1_0_0_n_n.lhsIdx (ix2 r q) ((contrEquiv1 dot_S2000x64_S256x64_S2000x256_1_1_0_0_n_n 64 rfl rfl).symm k) = ix2 r k := funext fun a => Fin.ext (by
    match a with
    | ⟨0, _⟩ => exact lhs_row _ _
    | ⟨1, _⟩ => exact (lhs_col _ _).trans hk)
  have er : dot_S2000x64_S256x64_S2000x256_1_1_0_0_n_n.rhsIdx (ix2 r q) ((contrEquiv1 dot_S2000x64_S256x64_S2000x256_1_1_0_0_n_n 64 rfl rfl).symm k) = ix2 q k := funext fun a => Fin.ext (by
    match a with
    | ⟨0, _⟩ => exact rhs_row _ _
    | ⟨1, _⟩ => exact (rhs_col _ _).trans hk)
  rw [el, er]

/-! ## The body's stored value at an entry -/

/-- Entry (r, q) of what the body stores: the two dot products summed, then the bias of column q, then the
    rectifier. The casts to the narrow format are the identity on extended reals. -/
theorem stored_at (x0 x1 : Vec Ideal S2000x64 .f32) (w0 w1 : Vec Ideal S256x64 .f32) (b : Vec Ideal S1x256 .f32)
    (r : Fin 2000) (q : Fin 256) :
    k0_pay1 (F := Ideal) x0 x1 w0 w1 b (ix2 r q)
      = max (((∑ k : Fin 64, x0 (ix2 r k) * w0 (ix2 q k)) + ∑ k : Fin 64, x1 (ix2 r k) * w1 (ix2 q k)) + b (ix2 0 q))
          (Ideal.ofBits .f32 0x00000000#32) := by
  unfold k0_pay1
  simp only [shapeCast_self]
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · exact product_at _ _ r q
    · exact product_at _ _ r q
  · exact broadcastTo_1b_ab_apply b _ r q

end Cert.Sage.Pay0

end
-- ==== Proof.Reg0.lean ====
/-
  The first layer's region: after its 25 grid points the output array [50000, 256] holds the layer's value of the arrays the region was entered with.
-/
import proofs.«135992_j24670292149153_1_alg».proof.Proof.Gen.KernelIdeal.Frame
import proofs.«135992_j24670292149153_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«135992_j24670292149153_1_alg».proof.Proof.Pay0
set_option maxRecDepth 16384

noncomputable section

namespace Cert.Sage.Region0

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`: the two row-blocked inputs and the output at block row `t`,
    the weights and the bias whole. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem points : cfg0.N = 25 := N_0

/-- One entry of a 2000-row block of the layer: if the blocks the body loads are rows `2000 t + r` of the
    aggregate and of the features, and the weights and the bias whole, then what the body stores at (r, q) is the
    layer's entry (2000 t + r, q). -/
theorem block_entry (x0 x1 : Vec Ideal S2000x64 .f32) (w0 w1 : Vec Ideal S256x64 .f32) (b : Vec Ideal S1x256 .f32)
    (A H : FVec Ideal S50000x64 .f32) (WL WR : FVec Ideal S256x64 .f32) (B : FVec Ideal S1x256 .f32)
    (t : Nat) (ht : t < 25) (r : Fin 2000) (q : Fin 256)
    (h0 : ∀ k : Fin 64, x0 (ix2 r k) = A (ix2 (⟨2000 * t + r.val, by have := r.isLt; omega⟩ : Fin 50000) k))
    (h1 : ∀ k : Fin 64, x1 (ix2 r k) = H (ix2 (⟨2000 * t + r.val, by have := r.isLt; omega⟩ : Fin 50000) k))
    (h2 : ∀ k : Fin 64, w0 (ix2 q k) = WL (ix2 q k)) (h3 : b (ix2 0 q) = B (ix2 0 q))
    (h4 : ∀ k : Fin 64, w1 (ix2 q k) = WR (ix2 q k)) :
    k0_pay1 (F := Ideal) x0 x1 w0 w1 b (ix2 r q)
      = Sage.layerAt A H WL WR (fun q => B (ix2 0 q)) ⟨2000 * t + r.val, by have := r.isLt; omega⟩ q := by
  rw [Pay0.stored_at]
  unfold Sage.layerAt Sage.rowDot Sage.zeroF
  simp only [h0, h1, h2, h3, h4]

/-- WHAT POINT `t` WRITES BACK is block `t` of the layer's value of the arrays the region was entered with. -/
theorem flushed_eq (c : Dev nD) (t : Fin cfg0.N) :
    (dat0 (F := Ideal) V c).flushed 5 t = ((cfg0.win 5).blk t).view.read (Elt Ideal)
      (Sage.layer (V c main_v24) (V c main_arg0) (V c main_arg3) (V c main_arg5) (fun q => V c main_v25 (ix2 0 q))) := by
  show (cfg0.win 5).cut (grid0.coords t) ((dat0 V c).after 5 t) = _
  rw [after0_5]
  unfold out0_5
  rw [View.canon_unit_zero origin]
  simp only [View.ld_unit_zero (S := S2000x64) origin, View.ld_unit_zero (S := S256x64) origin, View.ld_unit_zero (S := S1x256) origin]
  obtain ⟨e00, e01, e10, e11, e20, e21, e30, e31, e40, e41, e50, e51⟩ := block_index t
  have ht : t.val < 25 := lt_of_lt_of_eq t.isLt points
  funext j
  obtain ⟨r, q, rfl⟩ : ∃ (r : Fin 2000) (q : Fin 256), j = ix2 r q := ⟨j 0, j 1, eq_ix2 j⟩
  show k0_pay1 (F := Ideal) (iblk0 V c 0 t) (iblk0 V c 1 t) (iblk0 V c 2 t) (iblk0 V c 4 t) (iblk0 V c 3 t) (ix2 r q)
      = Sage.layer (V c main_v24) (V c main_arg0) (V c main_arg3) (V c main_arg5) (fun q => V c main_v25 (ix2 0 q))
          (((cfg0.win 5).blk t).view.emb (ix2 r q))
  refine (block_entry (iblk0 V c 0 t) (iblk0 V c 1 t) (iblk0 V c 2 t) (iblk0 V c 4 t) (iblk0 V c 3 t)
    (V c main_v24) (V c main_arg0) (V c main_arg3) (V c main_arg5) (V c main_v25) t.val ht r q ?_ ?_ ?_ ?_ ?_).trans ?_
  · intro k
    show V c main_v24 (((cfg0.win 0).blk t).view.emb (ix2 r k)) = _
    refine congrArg _ (funext fun a => Fin.ext ?_)
    match a with
    | ⟨0, _⟩ => show win0_0.index t (0 : Fin 2) * 2000 + 1 * r.val = 2000 * t.val + r.val; omega
    | ⟨1, _⟩ => show win0_0.index t (1 : Fin 2) * 64 + 1 * k.val = k.val; omega
  · intro k
    show V c main_arg0 (((cfg0.win 1).blk t).view.emb (ix2 r k)) = _
    refine congrArg _ (funext fun a => Fin.ext ?_)
    match a with
    | ⟨0, _⟩ => show win0_1.index t (0 : Fin 2) * 2000 + 1 * r.val = 2000 * t.val + r.val; omega
    | ⟨1, _⟩ => show win0_1.index t (1 : Fin 2) * 64 + 1 * k.val = k.val; omega
  · intro k
    show V c main_arg3 (((cfg0.win 2).blk t).view.emb (ix2 q k)) = _
    refine congrArg _ (funext fun a => Fin.ext ?_)
    match a with
    | ⟨0, _⟩ => show win0_2.index t (0 : Fin 2) * 256 + 1 * q.val = q.val; omega
    | ⟨1, _⟩ => show win0_2.index t (1 : Fin 2) * 64 + 1 * k.val = k.val; omega
  · show V c main_v25 (((cfg0.win 3).blk t).view.emb (ix2 0 q)) = _
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * q.val = q.val; omega
  · intro k
    show V c main_arg5 (((cfg0.win 4).blk t).view.emb (ix2 q k)) = _
    refine congrArg _ (funext fun a => Fin.ext ?_)
    match a with
    | ⟨0, _⟩ => show win0_4.index t (0 : Fin 2) * 256 + 1 * q.val = q.val; omega
    | ⟨1, _⟩ => show win0_4.index t (1 : Fin 2) * 64 + 1 * k.val = k.val; omega
  · unfold Sage.layer
    congr 1
    · apply Fin.ext
      show 2000 * t.val + r.val = win0_5.index t (0 : Fin 2) * 2000 + 1 * r.val
      omega
    · apply Fin.ext
      show q.val = win0_5.index t (1 : Fin 2) * 256 + 1 * q.val
      omega

/-- An index of the output array is in point `t`'s block iff each coordinate is in the block's range on its axis. -/
theorem mem_block (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- The 25 blocks of 2000 rows tile the output array: row `i` is in block `i / 2000`. -/
theorem tiled (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : (i 0).val / 2000 < cfg0.N := by rw [points]; omega
  refine ⟨⟨(i 0).val / 2000, hN⟩, flush0_5 _, ?_⟩
  obtain ⟨e00, e01, e10, e11, e20, e21, e30, e31, e40, e41, e50, e51⟩ := block_index ⟨(i 0).val / 2000, hN⟩
  rw [mem_block]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    have e : win0_5.index ⟨(i 0).val / 2000, hN⟩ (0 : Fin 2) = (i 0).val / 2000 := e50
    omega
  | ⟨1, _⟩ =>
    show win0_5.index ⟨(i 0).val / 2000, hN⟩ (1 : Fin 2) * 256 ≤ (i 1).val ∧ (i 1).val < win0_5.index ⟨(i 0).val / 2000, hN⟩ (1 : Fin 2) * 256 + 256
    omega

/-- THE OUTPUT ARRAY after the region: the layer's value of the arrays the region was entered with. -/
theorem final (c : Dev nD) :
    (dat0 (F := Ideal) V c).arrAt 5 cfg0.N
      = Sage.layer (V c main_v24) (V c main_arg0) (V c main_arg3) (V c main_arg5) (fun q => V c main_v25 (ix2 0 q)) :=
  (dat0 (F := Ideal) V c).arrAt_eq_of_cover 5 _ (fun t _ => flushed_eq V c t) (tiled)

end Cert.Sage.Region0

end
-- ==== Proof.Pay1.lean ====
/-
  The second layer's kernel body: what it stores, read at one entry of the 2000-row block.
-/
import proofs.«135992_j24670292149153_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Pay1

open Idealize.ShloMosaic Idealize.ShloMosaic.ValueIdx
open Cert.KernelIdeal Cert.KernelIdeal.Facts₀ Cert.KernelIdeal.Gen

/-! ## The matrix unit's product at an entry

  The product contracts axis 1 of both operands: entry (r, q) of the result reads row r of the left operand
  and row q of the right one. -/

theorem lhs_row (i : S2000x256.Idx) (p : dot_S2000x256_S256x256_S2000x256_1_1_0_0_n_n.contr.Idx) :
    (dot_S2000x256_S256x256_S2000x256_1_1_0_0_n_n.lhsIdx i p 0).val = (i 0).val := by
  unfold DotDims.lhsIdx
  rw [dif_neg (show ¬(0 : Fin S2000x256.rank) ∈ dot_S2000x256_S256x256_S2000x256_1_1_0_0_n_n.lhsBatch by decide), dif_pos (show (0 : Fin S2000x256.rank) ∈ dot_S2000x256_S256x256_S2000x256_1_1_0_0_n_n.lhsNonContracting by decide)]
  rfl
theorem lhs_col (i : S2000x256.Idx) (p : dot_S2000x256_S256x256_S2000x256_1_1_0_0_n_n.contr.Idx) :
    (dot_S2000x256_S256x256_S2000x256_1_1_0_0_n_n.lhsIdx i p 1).val = (p ⟨0, by decide⟩).val :=
  dot_S2000x256_S256x256_S2000x256_1_1_0_0_n_n.lhsIdx_val_of_single rfl i p
theorem rhs_row (i : S2000x256.Idx) (p : dot_S2000x256_S256x256_S2000x256_1_1_0_0_n_n.contr.Idx) :
    (dot_S2000x256_S256x256_S2000x256_1_1_0_0_n_n.rhsIdx i p 0).val = (i 1).val := by
  unfold DotDims.rhsIdx
  rw [dif_neg (show ¬(0 : Fin S256x256.rank) ∈ dot_S2000x256_S256x256_S2000x256_1_1_0_0_n_n.rhsBatch by decide), dif_pos (show (0 : Fin S256x256.rank) ∈ dot_S2000x256_S256x256_S2000x256_1_1_0_0_n_n.rhsNonContracting by decide)]
  rfl
theorem rhs_col (i : S2000x256.Idx) (p : dot_S2000x256_S256x256_S2000x256_1_1_0_0_n_n.contr.Idx) :
    (dot_S2000x256_S256x256_S2000x256_1_1_0_0_n_n.rhsIdx i p 1).val = (p ⟨0, by decide⟩).val :=
  dot_S2000x256_S256x256_S2000x256_1_1_0_0_n_n.rhsIdx_val_of_single rfl i p

/-- Into a zero accumulator the product's entry (r, q) is the dot product of row r and row q. -/
theorem product_at (a : FVec Ideal S2000x256 .bf16) (w : FVec Ideal S256x256 .bf16) (r : Fin 2000) (q : Fin 256) :
    matmul dot_S2000x256_S256x256_S2000x256_1_1_0_0_n_n none a w (constant S2000x256 .f32 0x00000000#32) (ix2 r q)
      = ∑ k : Fin 256, a (ix2 r k) * w (ix2 q k) := by
  refine (Ideal.matmul_constant_zero_apply dot_S2000x256_S256x256_S2000x256_1_1_0_0_n_n none a w (ix2 r q)).trans ?_
  rw [← Equiv.sum_comp (contrEquiv1 dot_S2000x256_S256x256_S2000x256_1_1_0_0_n_n 256 rfl rfl).symm]
  refine Finset.sum_congr rfl fun k _ => ?_
  have hk := contrEquiv1_symm_val dot_S2000x256_S256x256_S2000x256_1_1_0_0_n_n 256 rfl rfl k
  have el : dot_S2000x256_S256x256_S2000x256_1_1_0_0_n_n.lhsIdx (ix2 r q) ((contrEquiv1 dot_S2000x256_S256x256_S2000x256_1_1_0_0_n_n 256 rfl rfl).symm k) = ix2 r k := funext fun a => Fin.ext (by
    match a with
    | ⟨0, _⟩ => exact lhs_row _ _
    | ⟨1, _⟩ => exact (lhs_col _ _).trans hk)
  have er : dot_S2000x256_S256x256_S2000x256_1_1_0_0_n_n.rhsIdx (ix2 r q) ((contrEquiv1 dot_S2000x256_S256x256_S2000x256_1_1_0_0_n_n 256 rfl rfl).symm k) = ix2 q k := funext fun a => Fin.ext (by
    match a with
    | ⟨0, _⟩ => exact rhs_row _ _
    | ⟨1, _⟩ => exact (rhs_col _ _).trans hk)
  rw [el, er]

/-! ## The body's stored value at an entry -/

/-- Entry (r, q) of what the body stores: the two dot products summed, then the bias of column q, then the
    rectifier. The casts to the narrow format are the identity on extended reals. -/
theorem stored_at (x0 x1 : Vec Ideal S2000x256 .f32) (w0 w1 : Vec Ideal S256x256 .f32) (b : Vec Ideal S1x256 .f32)
    (r : Fin 2000) (q : Fin 256) :
    k1_pay1 (F := Ideal) x0 x1 w0 w1 b (ix2 r q)
      = max (((∑ k : Fin 256, x0 (ix2 r k) * w0 (ix2 q k)) + ∑ k : Fin 256, x1 (ix2 r k) * w1 (ix2 q k)) + b (ix2 0 q))
          (Ideal.ofBits .f32 0x00000000#32) := by
  unfold k1_pay1
  simp only [shapeCast_self]
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · exact product_at _ _ r q
    · exact product_at _ _ r q
  · exact broadcastTo_1b_ab_apply b _ r q

end Cert.Sage.Pay1

end
-- ==== Proof.Reg1.lean ====
/-
  The second layer's region: after its 25 grid points the output array [50000, 256] holds the layer's value of the arrays the region was entered with.
-/
import proofs.«135992_j24670292149153_1_alg».proof.Proof.Gen.KernelIdeal.Frame
import proofs.«135992_j24670292149153_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«135992_j24670292149153_1_alg».proof.Proof.Pay1
set_option maxRecDepth 16384

noncomputable section

namespace Cert.Sage.Region1

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`: the two row-blocked inputs and the output at block row `t`,
    the weights and the bias whole. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem points : cfg1.N = 25 := N_1

/-- One entry of a 2000-row block of the layer: if the blocks the body loads are rows `2000 t + r` of the
    aggregate and of the features, and the weights and the bias whole, then what the body stores at (r, q) is the
    layer's entry (2000 t + r, q). -/
theorem block_entry (x0 x1 : Vec Ideal S2000x256 .f32) (w0 w1 : Vec Ideal S256x256 .f32) (b : Vec Ideal S1x256 .f32)
    (A H : FVec Ideal S50000x256 .f32) (WL WR : FVec Ideal S256x256 .f32) (B : FVec Ideal S1x256 .f32)
    (t : Nat) (ht : t < 25) (r : Fin 2000) (q : Fin 256)
    (h0 : ∀ k : Fin 256, x0 (ix2 r k) = A (ix2 (⟨2000 * t + r.val, by have := r.isLt; omega⟩ : Fin 50000) k))
    (h1 : ∀ k : Fin 256, x1 (ix2 r k) = H (ix2 (⟨2000 * t + r.val, by have := r.isLt; omega⟩ : Fin 50000) k))
    (h2 : ∀ k : Fin 256, w0 (ix2 q k) = WL (ix2 q k)) (h3 : b (ix2 0 q) = B (ix2 0 q))
    (h4 : ∀ k : Fin 256, w1 (ix2 q k) = WR (ix2 q k)) :
    k1_pay1 (F := Ideal) x0 x1 w0 w1 b (ix2 r q)
      = Sage.layerAt A H WL WR (fun q => B (ix2 0 q)) ⟨2000 * t + r.val, by have := r.isLt; omega⟩ q := by
  rw [Pay1.stored_at]
  unfold Sage.layerAt Sage.rowDot Sage.zeroF
  simp only [h0, h1, h2, h3, h4]

/-- WHAT POINT `t` WRITES BACK is block `t` of the layer's value of the arrays the region was entered with. -/
theorem flushed_eq (c : Dev nD) (t : Fin cfg1.N) :
    (dat1 (F := Ideal) V c).flushed 5 t = ((cfg1.win 5).blk t).view.read (Elt Ideal)
      (Sage.layer (V c main_v38) (V c main_v26) (V c main_arg6) (V c main_arg8) (fun q => V c main_v39 (ix2 0 q))) := by
  show (cfg1.win 5).cut (grid1.coords t) ((dat1 V c).after 5 t) = _
  rw [after1_5]
  unfold out1_5
  rw [View.canon_unit_zero origin]
  simp only [View.ld_unit_zero (S := S2000x256) origin, View.ld_unit_zero (S := S256x256) origin, View.ld_unit_zero (S := S1x256) origin]
  obtain ⟨e00, e01, e10, e11, e20, e21, e30, e31, e40, e41, e50, e51⟩ := block_index t
  have ht : t.val < 25 := lt_of_lt_of_eq t.isLt points
  funext j
  obtain ⟨r, q, rfl⟩ : ∃ (r : Fin 2000) (q : Fin 256), j = ix2 r q := ⟨j 0, j 1, eq_ix2 j⟩
  show k1_pay1 (F := Ideal) (iblk1 V c 0 t) (iblk1 V c 1 t) (iblk1 V c 2 t) (iblk1 V c 4 t) (iblk1 V c 3 t) (ix2 r q)
      = Sage.layer (V c main_v38) (V c main_v26) (V c main_arg6) (V c main_arg8) (fun q => V c main_v39 (ix2 0 q))
          (((cfg1.win 5).blk t).view.emb (ix2 r q))
  refine (block_entry (iblk1 V c 0 t) (iblk1 V c 1 t) (iblk1 V c 2 t) (iblk1 V c 4 t) (iblk1 V c 3 t)
    (V c main_v38) (V c main_v26) (V c main_arg6) (V c main_arg8) (V c main_v39) t.val ht r q ?_ ?_ ?_ ?_ ?_).trans ?_
  · intro k
    show V c main_v38 (((cfg1.win 0).blk t).view.emb (ix2 r k)) = _
    refine congrArg _ (funext fun a => Fin.ext ?_)
    match a with
    | ⟨0, _⟩ => show win1_0.index t (0 : Fin 2) * 2000 + 1 * r.val = 2000 * t.val + r.val; omega
    | ⟨1, _⟩ => show win1_0.index t (1 : Fin 2) * 256 + 1 * k.val = k.val; omega
  · intro k
    show V c main_v26 (((cfg1.win 1).blk t).view.emb (ix2 r k)) = _
    refine congrArg _ (funext fun a => Fin.ext ?_)
    match a with
    | ⟨0, _⟩ => show win1_1.index t (0 : Fin 2) * 2000 + 1 * r.val = 2000 * t.val + r.val; omega
    | ⟨1, _⟩ => show win1_1.index t (1 : Fin 2) * 256 + 1 * k.val = k.val; omega
  · intro k
    show V c main_arg6 (((cfg1.win 2).blk t).view.emb (ix2 q k)) = _
    refine congrArg _ (funext fun a => Fin.ext ?_)
    match a with
    | ⟨0, _⟩ => show win1_2.index t (0 : Fin 2) * 256 + 1 * q.val = q.val; omega
    | ⟨1, _⟩ => show win1_2.index t (1 : Fin 2) * 256 + 1 * k.val = k.val; omega
  · show V c main_v39 (((cfg1.win 3).blk t).view.emb (ix2 0 q)) = _
    refine congrArg _ (funext fun a => Fin.ext ?_)
    match a with
    | ⟨0, _⟩ => show win1_3.index t (0 : Fin 2) * 1 + 1 * 0 = 0; omega
    | ⟨1, _⟩ => show win1_3.index t (1 : Fin 2) * 256 + 1 * q.val = q.val; omega
  · intro k
    show V c main_arg8 (((cfg1.win 4).blk t).view.emb (ix2 q k)) = _
    refine congrArg _ (funext fun a => Fin.ext ?_)
    match a with
    | ⟨0, _⟩ => show win1_4.index t (0 : Fin 2) * 256 + 1 * q.val = q.val; omega
    | ⟨1, _⟩ => show win1_4.index t (1 : Fin 2) * 256 + 1 * k.val = k.val; omega
  · unfold Sage.layer
    congr 1
    · apply Fin.ext
      show 2000 * t.val + r.val = win1_5.index t (0 : Fin 2) * 2000 + 1 * r.val
      omega
    · apply Fin.ext
      show q.val = win1_5.index t (1 : Fin 2) * 256 + 1 * q.val
      omega

/-- An index of the output array is in point `t`'s block iff each coordinate is in the block's range on its axis. -/
theorem mem_block (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v40).slice (win1_5.rect t)).set ↔ _
  rw [View.set_slice_whole, Rect.mem_set_unit]
  exact Iff.rfl

/-- The 25 blocks of 2000 rows tile the output array: row `i` is in block `i / 2000`. -/
theorem tiled (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : (i 0).val / 2000 < cfg1.N := by rw [points]; omega
  refine ⟨⟨(i 0).val / 2000, hN⟩, flush1_5 _, ?_⟩
  obtain ⟨e00, e01, e10, e11, e20, e21, e30, e31, e40, e41, e50, e51⟩ := block_index ⟨(i 0).val / 2000, hN⟩
  rw [mem_block]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    have e : win1_5.index ⟨(i 0).val / 2000, hN⟩ (0 : Fin 2) = (i 0).val / 2000 := e50
    omega
  | ⟨1, _⟩ =>
    show win1_5.index ⟨(i 0).val / 2000, hN⟩ (1 : Fin 2) * 256 ≤ (i 1).val ∧ (i 1).val < win1_5.index ⟨(i 0).val / 2000, hN⟩ (1 : Fin 2) * 256 + 256
    omega

/-- THE OUTPUT ARRAY after the region: the layer's value of the arrays the region was entered with. -/
theorem final (c : Dev nD) :
    (dat1 (F := Ideal) V c).arrAt 5 cfg1.N
      = Sage.layer (V c main_v38) (V c main_v26) (V c main_arg6) (V c main_arg8) (fun q => V c main_v39 (ix2 0 q)) :=
  (dat1 (F := Ideal) V c).arrAt_eq_of_cover 5 _ (fun t _ => flushed_eq V c t) (tiled)

end Cert.Sage.Region1

end
-- ==== Proof.Pay2.lean ====
/-
  The third layer's kernel body: what it stores, read at one entry of the 2000-row block.
-/
import proofs.«135992_j24670292149153_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Pay2

open Idealize.ShloMosaic Idealize.ShloMosaic.ValueIdx
open Cert.KernelIdeal Cert.KernelIdeal.Facts₀ Cert.KernelIdeal.Gen

/-! ## The matrix unit's product at an entry

  The product contracts axis 1 of both operands: entry (r, q) of the result reads row r of the left operand
  and row q of the right one. -/

theorem lhs_row (i : S2000x256.Idx) (p : dot_S2000x256_S256x256_S2000x256_1_1_0_0_n_n.contr.Idx) :
    (dot_S2000x256_S256x256_S2000x256_1_1_0_0_n_n.lhsIdx i p 0).val = (i 0).val := by
  unfold DotDims.lhsIdx
  rw [dif_neg (show ¬(0 : Fin S2000x256.rank) ∈ dot_S2000x256_S256x256_S2000x256_1_1_0_0_n_n.lhsBatch by decide), dif_pos (show (0 : Fin S2000x256.rank) ∈ dot_S2000x256_S256x256_S2000x256_1_1_0_0_n_n.lhsNonContracting by decide)]
  rfl
theorem lhs_col (i : S2000x256.Idx) (p : dot_S2000x256_S256x256_S2000x256_1_1_0_0_n_n.contr.Idx) :
    (dot_S2000x256_S256x256_S2000x256_1_1_0_0_n_n.lhsIdx i p 1).val = (p ⟨0, by decide⟩).val :=
  dot_S2000x256_S256x256_S2000x256_1_1_0_0_n_n.lhsIdx_val_of_single rfl i p
theorem rhs_row (i : S2000x256.Idx) (p : dot_S2000x256_S256x256_S2000x256_1_1_0_0_n_n.contr.Idx) :
    (dot_S2000x256_S256x256_S2000x256_1_1_0_0_n_n.rhsIdx i p 0).val = (i 1).val := by
  unfold DotDims.rhsIdx
  rw [dif_neg (show ¬(0 : Fin S256x256.rank) ∈ dot_S2000x256_S256x256_S2000x256_1_1_0_0_n_n.rhsBatch by decide), dif_pos (show (0 : Fin S256x256.rank) ∈ dot_S2000x256_S256x256_S2000x256_1_1_0_0_n_n.rhsNonContracting by decide)]
  rfl
theorem rhs_col (i : S2000x256.Idx) (p : dot_S2000x256_S256x256_S2000x256_1_1_0_0_n_n.contr.Idx) :
    (dot_S2000x256_S256x256_S2000x256_1_1_0_0_n_n.rhsIdx i p 1).val = (p ⟨0, by decide⟩).val :=
  dot_S2000x256_S256x256_S2000x256_1_1_0_0_n_n.rhsIdx_val_of_single rfl i p

/-- Into a zero accumulator the product's entry (r, q) is the dot product of row r and row q. -/
theorem product_at (a : FVec Ideal S2000x256 .bf16) (w : FVec Ideal S256x256 .bf16) (r : Fin 2000) (q : Fin 256) :
    matmul dot_S2000x256_S256x256_S2000x256_1_1_0_0_n_n none a w (constant S2000x256 .f32 0x00000000#32) (ix2 r q)
      = ∑ k : Fin 256, a (ix2 r k) * w (ix2 q k) := by
  refine (Ideal.matmul_constant_zero_apply dot_S2000x256_S256x256_S2000x256_1_1_0_0_n_n none a w (ix2 r q)).trans ?_
  rw [← Equiv.sum_comp (contrEquiv1 dot_S2000x256_S256x256_S2000x256_1_1_0_0_n_n 256 rfl rfl).symm]
  refine Finset.sum_congr rfl fun k _ => ?_
  have hk := contrEquiv1_symm_val dot_S2000x256_S256x256_S2000x256_1_1_0_0_n_n 256 rfl rfl k
  have el : dot_S2000x256_S256x256_S2000x256_1_1_0_0_n_n.lhsIdx (ix2 r q) ((contrEquiv1 dot_S2000x256_S256x256_S2000x256_1_1_0_0_n_n 256 rfl rfl).symm k) = ix2 r k := funext fun a => Fin.ext (by
    match a with
    | ⟨0, _⟩ => exact lhs_row _ _
    | ⟨1, _⟩ => exact (lhs_col _ _).trans hk)
  have er : dot_S2000x256_S256x256_S2000x256_1_1_0_0_n_n.rhsIdx (ix2 r q) ((contrEquiv1 dot_S2000x256_S256x256_S2000x256_1_1_0_0_n_n 256 rfl rfl).symm k) = ix2 q k := funext fun a => Fin.ext (by
    match a with
    | ⟨0, _⟩ => exact rhs_row _ _
    | ⟨1, _⟩ => exact (rhs_col _ _).trans hk)
  rw [el, er]

/-! ## The body's stored value at an entry -/

/-- Entry (r, q) of what the body stores: the two dot products summed, then the bias of column q, then the
    rectifier. The casts to the narrow format are the identity on extended reals. -/
theorem stored_at (x0 x1 : Vec Ideal S2000x256 .f32) (w0 w1 : Vec Ideal S256x256 .f32) (b : Vec Ideal S1x256 .f32)
    (r : Fin 2000) (q : Fin 256) :
    k2_pay1 (F := Ideal) x0 x1 w0 w1 b (ix2 r q)
      = max (((∑ k : Fin 256, x0 (ix2 r k) * w0 (ix2 q k)) + ∑ k : Fin 256, x1 (ix2 r k) * w1 (ix2 q k)) + b (ix2 0 q))
          (Ideal.ofBits .f32 0x00000000#32) := by
  unfold k2_pay1
  simp only [shapeCast_self]
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · exact product_at _ _ r q
    · exact product_at _ _ r q
  · exact broadcastTo_1b_ab_apply b _ r q

end Cert.Sage.Pay2

end
-- ==== Proof.Reg2.lean ====
/-
  The third layer's region: after its 25 grid points the output array [50000, 256] holds the layer's value of the arrays the region was entered with.
-/
import proofs.«135992_j24670292149153_1_alg».proof.Proof.Gen.KernelIdeal.Frame
import proofs.«135992_j24670292149153_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«135992_j24670292149153_1_alg».proof.Proof.Pay2
set_option maxRecDepth 16384

noncomputable section

namespace Cert.Sage.Region2

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point `t`: the two row-blocked inputs and the output at block row `t`,
    the weights and the bias whole. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem points : cfg2.N = 25 := N_2

/-- One entry of a 2000-row block of the layer: if the blocks the body loads are rows `2000 t + r` of the
    aggregate and of the features, and the weights and the bias whole, then what the body stores at (r, q) is the
    layer's entry (2000 t + r, q). -/
theorem block_entry (x0 x1 : Vec Ideal S2000x256 .f32) (w0 w1 : Vec Ideal S256x256 .f32) (b : Vec Ideal S1x256 .f32)
    (A H : FVec Ideal S50000x256 .f32) (WL WR : FVec Ideal S256x256 .f32) (B : FVec Ideal S1x256 .f32)
    (t : Nat) (ht : t < 25) (r : Fin 2000) (q : Fin 256)
    (h0 : ∀ k : Fin 256, x0 (ix2 r k) = A (ix2 (⟨2000 * t + r.val, by have := r.isLt; omega⟩ : Fin 50000) k))
    (h1 : ∀ k : Fin 256, x1 (ix2 r k) = H (ix2 (⟨2000 * t + r.val, by have := r.isLt; omega⟩ : Fin 50000) k))
    (h2 : ∀ k : Fin 256, w0 (ix2 q k) = WL (ix2 q k)) (h3 : b (ix2 0 q) = B (ix2 0 q))
    (h4 : ∀ k : Fin 256, w1 (ix2 q k) = WR (ix2 q k)) :
    k2_pay1 (F := Ideal) x0 x1 w0 w1 b (ix2 r q)
      = Sage.layerAt A H WL WR (fun q => B (ix2 0 q)) ⟨2000 * t + r.val, by have := r.isLt; omega⟩ q := by
  rw [Pay2.stored_at]
  unfold Sage.layerAt Sage.rowDot Sage.zeroF
  simp only [h0, h1, h2, h3, h4]

/-- WHAT POINT `t` WRITES BACK is block `t` of the layer's value of the arrays the region was entered with. -/
theorem flushed_eq (c : Dev nD) (t : Fin cfg2.N) :
    (dat2 (F := Ideal) V c).flushed 5 t = ((cfg2.win 5).blk t).view.read (Elt Ideal)
      (Sage.layer (V c main_v52) (V c main_v40) (V c main_arg9) (V c main_arg11) (fun q => V c main_v53 (ix2 0 q))) := by
  show (cfg2.win 5).cut (grid2.coords t) ((dat2 V c).after 5 t) = _
  rw [after2_5]
  unfold out2_5
  rw [View.canon_unit_zero origin]
  simp only [View.ld_unit_zero (S := S2000x256) origin, View.ld_unit_zero (S := S256x256) origin, View.ld_unit_zero (S := S1x256) origin]
  obtain ⟨e00, e01, e10, e11, e20, e21, e30, e31, e40, e41, e50, e51⟩ := block_index t
  have ht : t.val < 25 := lt_of_lt_of_eq t.isLt points
  funext j
  obtain ⟨r, q, rfl⟩ : ∃ (r : Fin 2000) (q : Fin 256), j = ix2 r q := ⟨j 0, j 1, eq_ix2 j⟩
  show k2_pay1 (F := Ideal) (iblk2 V c 0 t) (iblk2 V c 1 t) (iblk2 V c 2 t) (iblk2 V c 4 t) (iblk2 V c 3 t) (ix2 r q)
      = Sage.layer (V c main_v52) (V c main_v40) (V c main_arg9) (V c main_arg11) (fun q => V c main_v53 (ix2 0 q))
          (((cfg2.win 5).blk t).view.emb (ix2 r q))
  refine (block_entry (iblk2 V c 0 t) (iblk2 V c 1 t) (iblk2 V c 2 t) (iblk2 V c 4 t) (iblk2 V c 3 t)
    (V c main_v52) (V c main_v40) (V c main_arg9) (V c main_arg11) (V c main_v53) t.val ht r q ?_ ?_ ?_ ?_ ?_).trans ?_
  · intro k
    show V c main_v52 (((cfg2.win 0).blk t).view.emb (ix2 r k)) = _
    refine congrArg _ (funext fun a => Fin.ext ?_)
    match a with
    | ⟨0, _⟩ => show win2_0.index t (0 : Fin 2) * 2000 + 1 * r.val = 2000 * t.val + r.val; omega
    | ⟨1, _⟩ => show win2_0.index t (1 : Fin 2) * 256 + 1 * k.val = k.val; omega
  · intro k
    show V c main_v40 (((cfg2.win 1).blk t).view.emb (ix2 r k)) = _
    refine congrArg _ (funext fun a => Fin.ext ?_)
    match a with
    | ⟨0, _⟩ => show win2_1.index t (0 : Fin 2) * 2000 + 1 * r.val = 2000 * t.val + r.val; omega
    | ⟨1, _⟩ => show win2_1.index t (1 : Fin 2) * 256 + 1 * k.val = k.val; omega
  · intro k
    show V c main_arg9 (((cfg2.win 2).blk t).view.emb (ix2 q k)) = _
    refine congrArg _ (funext fun a => Fin.ext ?_)
    match a with
    | ⟨0, _⟩ => show win2_2.index t (0 : Fin 2) * 256 + 1 * q.val = q.val; omega
    | ⟨1, _⟩ => show win2_2.index t (1 : Fin 2) * 256 + 1 * k.val = k.val; omega
  · show V c main_v53 (((cfg2.win 3).blk t).view.emb (ix2 0 q)) = _
    refine congrArg _ (funext fun a => Fin.ext ?_)
    match a with
    | ⟨0, _⟩ => show win2_3.index t (0 : Fin 2) * 1 + 1 * 0 = 0; omega
    | ⟨1, _⟩ => show win2_3.index t (1 : Fin 2) * 256 + 1 * q.val = q.val; omega
  · intro k
    show V c main_arg11 (((cfg2.win 4).blk t).view.emb (ix2 q k)) = _
    refine congrArg _ (funext fun a => Fin.ext ?_)
    match a with
    | ⟨0, _⟩ => show win2_4.index t (0 : Fin 2) * 256 + 1 * q.val = q.val; omega
    | ⟨1, _⟩ => show win2_4.index t (1 : Fin 2) * 256 + 1 * k.val = k.val; omega
  · unfold Sage.layer
    congr 1
    · apply Fin.ext
      show 2000 * t.val + r.val = win2_5.index t (0 : Fin 2) * 2000 + 1 * r.val
      omega
    · apply Fin.ext
      show q.val = win2_5.index t (1 : Fin 2) * 256 + 1 * q.val
      omega

/-- An index of the output array is in point `t`'s block iff each coordinate is in the block's range on its axis. -/
theorem mem_block (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v54).slice (win2_5.rect t)).set ↔ _
  rw [View.set_slice_whole, Rect.mem_set_unit]
  exact Iff.rfl

/-- The 25 blocks of 2000 rows tile the output array: row `i` is in block `i / 2000`. -/
theorem tiled (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : (i 0).val / 2000 < cfg2.N := by rw [points]; omega
  refine ⟨⟨(i 0).val / 2000, hN⟩, flush2_5 _, ?_⟩
  obtain ⟨e00, e01, e10, e11, e20, e21, e30, e31, e40, e41, e50, e51⟩ := block_index ⟨(i 0).val / 2000, hN⟩
  rw [mem_block]
  intro a
  match a with
  | ⟨0, _⟩ =>
    show win2_5.index ⟨(i 0).val / 2000, hN⟩ (0 : Fin 2) * 2000 ≤ (i 0).val ∧ (i 0).val < win2_5.index ⟨(i 0).val / 2000, hN⟩ (0 : Fin 2) * 2000 + 2000
    have e : win2_5.index ⟨(i 0).val / 2000, hN⟩ (0 : Fin 2) = (i 0).val / 2000 := e50
    omega
  | ⟨1, _⟩ =>
    show win2_5.index ⟨(i 0).val / 2000, hN⟩ (1 : Fin 2) * 256 ≤ (i 1).val ∧ (i 1).val < win2_5.index ⟨(i 0).val / 2000, hN⟩ (1 : Fin 2) * 256 + 256
    omega

/-- THE OUTPUT ARRAY after the region: the layer's value of the arrays the region was entered with. -/
theorem final (c : Dev nD) :
    (dat2 (F := Ideal) V c).arrAt 5 cfg2.N
      = Sage.layer (V c main_v52) (V c main_v40) (V c main_arg9) (V c main_arg11) (fun q => V c main_v53 (ix2 0 q)) :=
  (dat2 (F := Ideal) V c).arrAt_eq_of_cover 5 _ (fun t _ => flushed_eq V c t) (tiled)

end Cert.Sage.Region2

end
-- ==== Proof.PayHead.lean ====
/-
  The head's kernel body: what it stores, read at one entry of the [128, 24] output.
-/
import proofs.«135992_j24670292149153_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Sage.PayHead

open Idealize.ShloMosaic Idealize.ShloMosaic.ValueIdx
open Cert.KernelIdeal Cert.KernelIdeal.Facts₀ Cert.KernelIdeal.Gen

/-! ## The first product at an entry: pooled features against the first weight matrix

  The product contracts axis 1 of both operands: entry (r, k) of the result reads row r of the pooled
  features and row k of the weights. -/

theorem hidden_lhs_row (i : S128x128.Idx) (p : dot_S128x256_S128x256_S128x128_1_1_0_0_n_n.contr.Idx) :
    (dot_S128x256_S128x256_S128x128_1_1_0_0_n_n.lhsIdx i p 0).val = (i 0).val := by
  unfold DotDims.lhsIdx
  rw [dif_neg (show ¬(0 : Fin S128x256.rank) ∈ dot_S128x256_S128x256_S128x128_1_1_0_0_n_n.lhsBatch by decide), dif_pos (show (0 : Fin S128x256.rank) ∈ dot_S128x256_S128x256_S128x128_1_1_0_0_n_n.lhsNonContracting by decide)]
  rfl
theorem hidden_lhs_col (i : S128x128.Idx) (p : dot_S128x256_S128x256_S128x128_1_1_0_0_n_n.contr.Idx) :
    (dot_S128x256_S128x256_S128x128_1_1_0_0_n_n.lhsIdx i p 1).val = (p ⟨0, by decide⟩).val :=
  dot_S128x256_S128x256_S128x128_1_1_0_0_n_n.lhsIdx_val_of_single rfl i p
theorem hidden_rhs_row (i : S128x128.Idx) (p : dot_S128x256_S128x256_S128x128_1_1_0_0_n_n.contr.Idx) :
    (dot_S128x256_S128x256_S128x128_1_1_0_0_n_n.rhsIdx i p 0).val = (i 1).val := by
  unfold DotDims.rhsIdx
  rw [dif_neg (show ¬(0 : Fin S128x256.rank) ∈ dot_S128x256_S128x256_S128x128_1_1_0_0_n_n.rhsBatch by decide), dif_pos (show (0 : Fin S128x256.rank) ∈ dot_S128x256_S128x256_S128x128_1_1_0_0_n_n.rhsNonContracting by decide)]
  rfl
theorem hidden_rhs_col (i : S128x128.Idx) (p : dot_S128x256_S128x256_S128x128_1_1_0_0_n_n.contr.Idx) :
    (dot_S128x256_S128x256_S128x128_1_1_0_0_n_n.rhsIdx i p 1).val = (p ⟨0, by decide⟩).val :=
  dot_S128x256_S128x256_S128x128_1_1_0_0_n_n.rhsIdx_val_of_single rfl i p

/-- Into a zero accumulator the first product's entry (r, k) is the dot product of row r and row k. -/
theorem hidden_product_at (a : FVec Ideal S128x256 .bf16) (w : FVec Ideal S128x256 .bf16) (r : Fin 128) (q : Fin 128) :
    matmul dot_S128x256_S128x256_S128x128_1_1_0_0_n_n none a w (constant S128x128 .f32 0x00000000#32) (ix2 r q)
      = ∑ k : Fin 256, a (ix2 r k) * w (ix2 q k) := by
  refine (Ideal.matmul_constant_zero_apply dot_S128x256_S128x256_S128x128_1_1_0_0_n_n none a w (ix2 r q)).trans ?_
  rw [← Equiv.sum_comp (contrEquiv1 dot_S128x256_S128x256_S128x128_1_1_0_0_n_n 256 rfl rfl).symm]
  refine Finset.sum_congr rfl fun k _ => ?_
  have hk := contrEquiv1_symm_val dot_S128x256_S128x256_S128x128_1_1_0_0_n_n 256 rfl rfl k
  have el : dot_S128x256_S128x256_S128x128_1_1_0_0_n_n.lhsIdx (ix2 r q) ((contrEquiv1 dot_S128x256_S128x256_S128x128_1_1_0_0_n_n 256 rfl rfl).symm k) = ix2 r k := funext fun a => Fin.ext (by
    match a with
    | ⟨0, _⟩ => exact hidden_lhs_row _ _
    | ⟨1, _⟩ => exact (hidden_lhs_col _ _).trans hk)
  have er : dot_S128x256_S128x256_S128x128_1_1_0_0_n_n.rhsIdx (ix2 r q) ((contrEquiv1 dot_S128x256_S128x256_S128x128_1_1_0_0_n_n 256 rfl rfl).symm k) = ix2 q k := funext fun a => Fin.ext (by
    match a with
    | ⟨0, _⟩ => exact hidden_rhs_row _ _
    | ⟨1, _⟩ => exact (hidden_rhs_col _ _).trans hk)
  rw [el, er]

/-! ## The second product at an entry: hidden units against the second weight matrix -/

theorem out_lhs_row (i : S128x24.Idx) (p : dot_S128x128_S24x128_S128x24_1_1_0_0_n_n.contr.Idx) :
    (dot_S128x128_S24x128_S128x24_1_1_0_0_n_n.lhsIdx i p 0).val = (i 0).val := by
  unfold DotDims.lhsIdx
  rw [dif_neg (show ¬(0 : Fin S128x128.rank) ∈ dot_S128x128_S24x128_S128x24_1_1_0_0_n_n.lhsBatch by decide), dif_pos (show (0 : Fin S128x128.rank) ∈ dot_S128x128_S24x128_S128x24_1_1_0_0_n_n.lhsNonContracting by decide)]
  rfl
theorem out_lhs_col (i : S128x24.Idx) (p : dot_S128x128_S24x128_S128x24_1_1_0_0_n_n.contr.Idx) :
    (dot_S128x128_S24x128_S128x24_1_1_0_0_n_n.lhsIdx i p 1).val = (p ⟨0, by decide⟩).val :=
  dot_S128x128_S24x128_S128x24_1_1_0_0_n_n.lhsIdx_val_of_single rfl i p
theorem out_rhs_row (i : S128x24.Idx) (p : dot_S128x128_S24x128_S128x24_1_1_0_0_n_n.contr.Idx) :
    (dot_S128x128_S24x128_S128x24_1_1_0_0_n_n.rhsIdx i p 0).val = (i 1).val := by
  unfold DotDims.rhsIdx
  rw [dif_neg (show ¬(0 : Fin S24x128.rank) ∈ dot_S128x128_S24x128_S128x24_1_1_0_0_n_n.rhsBatch by decide), dif_pos (show (0 : Fin S24x128.rank) ∈ dot_S128x128_S24x128_S128x24_1_1_0_0_n_n.rhsNonContracting by decide)]
  rfl
theorem out_rhs_col (i : S128x24.Idx) (p : dot_S128x128_S24x128_S128x24_1_1_0_0_n_n.contr.Idx) :
    (dot_S128x128_S24x128_S128x24_1_1_0_0_n_n.rhsIdx i p 1).val = (p ⟨0, by decide⟩).val :=
  dot_S128x128_S24x128_S128x24_1_1_0_0_n_n.rhsIdx_val_of_single rfl i p

/-- Into a zero accumulator the second product's entry (r, q) is the dot product of row r and row q. -/
theorem out_product_at (a : FVec Ideal S128x128 .bf16) (w : FVec Ideal S24x128 .bf16) (r : Fin 128) (q : Fin 24) :
    matmul dot_S128x128_S24x128_S128x24_1_1_0_0_n_n none a w (constant S128x24 .f32 0x00000000#32) (ix2 r q)
      = ∑ k : Fin 128, a (ix2 r k) * w (ix2 q k) := by
  refine (Ideal.matmul_constant_zero_apply dot_S128x128_S24x128_S128x24_1_1_0_0_n_n none a w (ix2 r q)).trans ?_
  rw [← Equiv.sum_comp (contrEquiv1 dot_S128x128_S24x128_S128x24_1_1_0_0_n_n 128 rfl rfl).symm]
  refine Finset.sum_congr rfl fun k _ => ?_
  have hk := contrEquiv1_symm_val dot_S128x128_S24x128_S128x24_1_1_0_0_n_n 128 rfl rfl k
  have el : dot_S128x128_S24x128_S128x24_1_1_0_0_n_n.lhsIdx (ix2 r q) ((contrEquiv1 dot_S128x128_S24x128_S128x24_1_1_0_0_n_n 128 rfl rfl).symm k) = ix2 r k := funext fun a => Fin.ext (by
    match a with
    | ⟨0, _⟩ => exact out_lhs_row _ _
    | ⟨1, _⟩ => exact (out_lhs_col _ _).trans hk)
  have er : dot_S128x128_S24x128_S128x24_1_1_0_0_n_n.rhsIdx (ix2 r q) ((contrEquiv1 dot_S128x128_S24x128_S128x24_1_1_0_0_n_n 128 rfl rfl).symm k) = ix2 q k := funext fun a => Fin.ext (by
    match a with
    | ⟨0, _⟩ => exact out_rhs_row _ _
    | ⟨1, _⟩ => exact (out_rhs_col _ _).trans hk)
  rw [el, er]

/-! ## The body's stored value at an entry -/

/-- Entry (r, q) of what the body stores: each hidden unit k is the rectified dot product of row r of the
    pooled features and row k of the first weights plus its bias; the entry is the dot product of the hidden
    units and row q of the second weights plus the bias of column q. The casts to the narrow format are the
    identity on extended reals. -/
theorem stored_at (p w1 : Vec Ideal S128x256 .f32) (c1 : Vec Ideal S1x128 .f32) (w2 : Vec Ideal S24x128 .f32)
    (c2 : Vec Ideal S1x24 .f32) (r : Fin 128) (q : Fin 24) :
    k3_pay1 (F := Ideal) p w1 c1 w2 c2 (ix2 r q)
      = (∑ k : Fin 128, max ((∑ l : Fin 256, p (ix2 r l) * w1 (ix2 k l)) + c1 (ix2 0 k)) (Ideal.ofBits .f32 0x00000000#32) * w2 (ix2 q k)) + c2 (ix2 0 q) := by
  unfold k3_pay1
  simp only [shapeCast_self]
  refine (addf_apply _ _ _).trans ?_
  refine congrArg₂ (· + ·) ?_ ?_
  · refine (out_product_at _ _ r q).trans ?_
    refine Finset.sum_congr rfl fun k _ => ?_
    refine congrArg₂ (· * ·) ?_ rfl
    refine (truncf_apply (ψ := .bf16) _ Gen.bitsLt_bf16_f32 (ix2 r k)).trans ?_
    refine (maximumf_apply _ _ _).trans ?_
    refine congrArg₂ max ?_ rfl
    refine (addf_apply _ _ _).trans ?_
    refine congrArg₂ (· + ·) ?_ ?_
    · exact hidden_product_at _ _ r k
    · exact broadcastTo_1b_ab_apply c1 _ r k
  · exact broadcastTo_1b_ab_apply c2 _ r q

end Cert.Sage.PayHead

end
-- ==== Proof.Reg3.lean ====
/-
  The head's region: after its single grid point the output array [128, 24] holds the head's value of the
  arrays the region was entered with.
-/
import proofs.«135992_j24670292149153_1_alg».proof.Proof.Gen.KernelIdeal.Frame
import proofs.«135992_j24670292149153_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«135992_j24670292149153_1_alg».proof.Proof.PayHead
set_option maxRecDepth 16384

noncomputable section

namespace Cert.Sage.Region3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at the single grid point: every window's block is its whole array, at the
    origin. -/
theorem block_index : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- What the body stores, from whole arrays: the head's value of them, the two biases read off their rows. -/
theorem stored_eq_head (p w1 : Vec Ideal S128x256 .f32) (c1 : Vec Ideal S1x128 .f32) (w2 : Vec Ideal S24x128 .f32)
    (c2 : Vec Ideal S1x24 .f32) :
    k3_pay1 (F := Ideal) p w1 c1 w2 c2 = Sage.head p w1 (fun k => c1 (ix2 0 k)) w2 (fun q => c2 (ix2 0 q)) := by
  funext j
  obtain ⟨r, q, rfl⟩ : ∃ (r : Fin 128) (q : Fin 24), j = ix2 r q := ⟨j 0, j 1, eq_ix2 j⟩
  rw [PayHead.stored_at]
  rfl

/-- The staging buffer after the body, when the blocks the body loads are the whole arrays: the head's value of
    the arrays. -/
theorem block_value (x0 x1 : Vec Ideal S128x256 .f32) (x2 : Vec Ideal S1x128 .f32) (x3 : Vec Ideal S24x128 .f32)
    (x4 : Vec Ideal S1x24 .f32)
    (P W1 : FVec Ideal S128x256 .f32) (C1 : FVec Ideal S1x128 .f32) (W2 : FVec Ideal S24x128 .f32) (C2 : FVec Ideal S1x24 .f32)
    (h0 : ∀ j, x0 j = P j) (h1 : ∀ j, x1 j = W1 j) (h2 : ∀ j, x2 j = C1 j) (h3 : ∀ j, x3 j = W2 j) (h4 : ∀ j, x4 j = C2 j) :
    out3_5 (F := Ideal) x0 x1 x2 x3 x4 = Sage.head P W1 (fun k => C1 (ix2 0 k)) W2 (fun q => C2 (ix2 0 q)) := by
  obtain rfl : x0 = P := funext h0
  obtain rfl : x1 = W1 := funext h1
  obtain rfl : x2 = C1 := funext h2
  obtain rfl : x3 = W2 := funext h3
  obtain rfl : x4 = C2 := funext h4
  unfold out3_5
  rw [View.canon_unit_zero origin]
  simp only [View.ld_unit_zero (S := S128x256) origin, View.ld_unit_zero (S := S1x128) origin, View.ld_unit_zero (S := S24x128) origin, View.ld_unit_zero (S := S1x24) origin]
  exact stored_eq_head _ _ _ _ _

/-- WHAT THE POINT WRITES BACK is the (whole) block of the head's value of the arrays the region was entered with. -/
theorem flushed_eq (c : Dev nD) (t : Fin cfg3.N) :
    (dat3 (F := Ideal) V c).flushed 5 t = ((cfg3.win 5).blk t).view.read (Elt Ideal)
      (Sage.head (V c main_v66) (V c main_arg12) (fun k => V c main_v67 (ix2 0 k)) (V c main_arg14) (fun q => V c main_v68 (ix2 0 q))) := by
  show (cfg3.win 5).cut (grid3.coords t) ((dat3 V c).after 5 t) = _
  rw [after3_5]
  obtain ⟨e00, e01, e10, e11, e20, e21, e30, e31, e40, e41, e50, e51⟩ := block_index t
  have hv := block_value (iblk3 V c 0 t) (iblk3 V c 1 t) (iblk3 V c 2 t) (iblk3 V c 3 t) (iblk3 V c 4 t)
    (V c main_v66) (V c main_arg12) (V c main_v67) (V c main_arg14) (V c main_v68)
    (fun j => by
      show V c main_v66 (((cfg3.win 0).blk t).view.emb j) = V c main_v66 j
      refine congrArg _ (funext fun a => Fin.ext ?_)
      match a with
      | ⟨0, _⟩ => show win3_0.index t (0 : Fin 2) * 128 + 1 * (j 0).val = (j 0).val; omega
      | ⟨1, _⟩ => show win3_0.index t (1 : Fin 2) * 256 + 1 * (j 1).val = (j 1).val; omega)
    (fun j => by
      show V c main_arg12 (((cfg3.win 1).blk t).view.emb j) = V c main_arg12 j
      refine congrArg _ (funext fun a => Fin.ext ?_)
      match a with
      | ⟨0, _⟩ => show win3_1.index t (0 : Fin 2) * 128 + 1 * (j 0).val = (j 0).val; omega
      | ⟨1, _⟩ => show win3_1.index t (1 : Fin 2) * 256 + 1 * (j 1).val = (j 1).val; omega)
    (fun j => by
      show V c main_v67 (((cfg3.win 2).blk t).view.emb j) = V c main_v67 j
      refine congrArg _ (funext fun a => Fin.ext ?_)
      match a with
      | ⟨0, _⟩ => show win3_2.index t (0 : Fin 2) * 1 + 1 * (j 0).val = (j 0).val; omega
      | ⟨1, _⟩ => show win3_2.index t (1 : Fin 2) * 128 + 1 * (j 1).val = (j 1).val; omega)
    (fun j => by
      show V c main_arg14 (((cfg3.win 3).blk t).view.emb j) = V c main_arg14 j
      refine congrArg _ (funext fun a => Fin.ext ?_)
      match a with
      | ⟨0, _⟩ => show win3_3.index t (0 : Fin 2) * 24 + 1 * (j 0).val = (j 0).val; omega
      | ⟨1, _⟩ => show win3_3.index t (1 : Fin 2) * 128 + 1 * (j 1).val = (j 1).val; omega)
    (fun j => by
      show V c main_v68 (((cfg3.win 4).blk t).view.emb j) = V c main_v68 j
      refine congrArg _ (funext fun a => Fin.ext ?_)
      match a with
      | ⟨0, _⟩ => show win3_4.index t (0 : Fin 2) * 1 + 1 * (j 0).val = (j 0).val; omega
      | ⟨1, _⟩ => show win3_4.index t (1 : Fin 2) * 24 + 1 * (j 1).val = (j 1).val; omega)
  refine (congrArg ((cfg3.win 5).cut (grid3.coords t)) hv).trans ?_
  funext j
  show Sage.head (V c main_v66) (V c main_arg12) (fun k => V c main_v67 (ix2 0 k)) (V c main_arg14) (fun q => V c main_v68 (ix2 0 q)) j
    = Sage.head (V c main_v66) (V c main_arg12) (fun k => V c main_v67 (ix2 0 k)) (V c main_arg14) (fun q => V c main_v68 (ix2 0 q)) (((cfg3.win 5).blk t).view.emb j)
  refine congrArg _ (funext fun a => Fin.ext ?_)
  match a with
  | ⟨0, _⟩ => show (j 0).val = win3_5.index t (0 : Fin 2) * 128 + 1 * (j 0).val; omega
  | ⟨1, _⟩ => show (j 1).val = win3_5.index t (1 : Fin 2) * 24 + 1 * (j 1).val; omega

/-- An index of the array is in the point's block iff each coordinate is in the block's range on its axis. -/
theorem mem_blk (t : Fin cfg3.N) (i : S128x24.Idx) :
    i ∈ ((cfg3.win 5).blk t).view.set ↔ ∀ a : Fin 2, win3_5.index t a * S128x24.size a ≤ (i a).val ∧ (i a).val < win3_5.index t a * S128x24.size a + S128x24.size a := by
  show i ∈ ((View.whole main_v69).slice (win3_5.rect t)).set ↔ _
  rw [View.set_slice_whole, Rect.mem_set_unit]
  exact Iff.rfl

/-- The single block is the whole array: every index is in it. -/
theorem cover (i : S128x24.Idx) : ∃ t : Fin cfg3.N, (cfg3.win 5).flush t = true ∧ i ∈ ((cfg3.win 5).blk t).view.set := by
  refine ⟨t3_0, flush3_5 t3_0, ?_⟩
  rw [mem_blk]
  obtain ⟨e00, e01, e10, e11, e20, e21, e30, e31, e40, e41, e50, e51⟩ := block_index t3_0
  intro a
  match a with
  | ⟨0, _⟩ => show win3_5.index t3_0 (0 : Fin 2) * 128 ≤ (i 0).val ∧ (i 0).val < win3_5.index t3_0 (0 : Fin 2) * 128 + 128; have := (i 0).isLt; have : (i 0).val < 128 := this; omega
  | ⟨1, _⟩ => show win3_5.index t3_0 (1 : Fin 2) * 24 ≤ (i 1).val ∧ (i 1).val < win3_5.index t3_0 (1 : Fin 2) * 24 + 24; have := (i 1).isLt; have : (i 1).val < 24 := this; omega

/-- THE ARRAY after the run: the head's value of the arrays the region was entered with. -/
theorem final (c : Dev nD) :
    (dat3 (F := Ideal) V c).arrAt 5 cfg3.N
      = Sage.head (V c main_v66) (V c main_arg12) (fun k => V c main_v67 (ix2 0 k)) (V c main_arg14) (fun q => V c main_v68 (ix2 0 q)) :=
  Dat.arrAt_eq_of_cover (dat3 (F := Ideal) V c) 5 _ (fun t _ => flushed_eq V c t) cover

end Cert.Sage.Region3

end
-- ==== Proof.KValue.lean ====
/-
  The kernel program's result buffer holds the network's value of the arguments.

  Region by region: a region's output array is the layer's (or the head's) value of the arrays the region was
  entered with; those are, by the host stretch before it, the aggregate of the previous region's output, that
  output itself, and weights and a bias that still hold their launch contents. Three layers and the pooled head
  compose to the network.
-/
import proofs.«135992_j24670292149153_1_alg».proof.Proof.Gen.KernelIdeal.Frame
import proofs.«135992_j24670292149153_1_alg».proof.Proof.Spec
import proofs.«135992_j24670292149153_1_alg».proof.Proof.KHost
import proofs.«135992_j24670292149153_1_alg».proof.Proof.Reg0
import proofs.«135992_j24670292149153_1_alg».proof.Proof.Reg1
import proofs.«135992_j24670292149153_1_alg».proof.Proof.Reg2
import proofs.«135992_j24670292149153_1_alg».proof.Proof.Reg3

set_option maxRecDepth 16384

noncomputable section

namespace Cert.Sage.Kernel

open Idealize.ShloMosaic Idealize.ShloMosaic.TcCoe Idealize.ShloMosaic.ValueIdx Idealize.SL.Sem
open Cert.KernelIdeal Cert.KernelIdeal.Facts₀ Cert.KernelIdeal.Gen

variable (m : (ℓ : Loc nD τ sig) → Buf (Elt Ideal) ℓ) (ρ : Dev nD → PrngReg) (c : Dev nD)

/-- After the first region its output array is the first layer's value. -/
theorem layer1 : W2 m ρ c (Proc.devRef .tc main_v26)
    = Sage.hidden1 (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Region0.final (V1 m ρ) c).trans ?_)
  show Sage.layer (W1 m ρ c (Proc.devRef .tc main_v24)) (W1 m ρ c (Proc.devRef .tc main_arg0)) (W1 m ρ c (Proc.devRef .tc main_arg3)) (W1 m ρ c (Proc.devRef .tc main_arg5))
      (fun q => (W1 m ρ c (Proc.devRef .tc main_v25) : FVec Ideal S1x256 .f32) (ix2 0 q)) = _
  rw [Host.aggregate_1, Host.arg0_1, Host.arg3_1, Host.arg5_1]
  exact congrArg (Sage.layer _ _ _ _) (funext fun q => Host.bias_1 m ρ c q)

/-- After the second region its output array is the second layer's value. -/
theorem layer2 : W4 m ρ c (Proc.devRef .tc main_v40)
    = Sage.hiddenNext (Sage.hidden1 (m ((c : Thread nD τ).loc main_arg0)) (m ((c : Thread nD τ).loc main_arg1)) (m ((c : Thread nD τ).loc main_arg3)) (m ((c : Thread nD τ).loc main_arg4)) (m ((c : Thread nD τ).loc main_arg5)))
        (m ((c : Thread nD τ).loc main_arg1)) (m ((c : Thread nD τ).loc main_arg6)) (m ((c : Thread nD τ).loc main_arg7)) (m ((c : Thread nD τ).loc main_arg8)) := by
  refine (W4_arr m ρ c 5).trans ((Region1.final (V3 m ρ) c).trans ?_)
  show Sage.layer (W3 m ρ c (Proc.devRef .tc main_v38)) (W3 m ρ c (Proc.devRef .tc main_v26)) (W3 m ρ c (Proc.devRef .tc main_arg6)) (W3 m ρ c (Proc.devRef .tc main_arg8))
      (fun q => (W3 m ρ c (Proc.devRef .tc main_v39) : FVec Ideal S1x256 .f32) (ix2 0 q)) = _
  rw [Host.aggregate_3, Host.features_3, layer1, Host.arg6_3, Host.arg8_3]
  exact congrArg (Sage.layer _ _ _ _) (funext fun q => Host.bias_3 m ρ c q)

/-- After the third region its output array is the third layer's value. -/
theorem layer3 : W6 m ρ c (Proc.devRef .tc main_v54)
    = Sage.hiddenNext (Sage.hiddenNext (Sage.hidden1 (m ((c : Thread nD τ).loc main_arg0)) (m ((c : Thread nD τ).loc main_arg1)) (m ((c : Thread nD τ).loc main_arg3)) (m ((c : Thread nD τ).loc main_arg4)) (m ((c : Thread nD τ).loc main_arg5)))
        (m ((c : Thread nD τ).loc main_arg1)) (m ((c : Thread nD τ).loc main_arg6)) (m ((c : Thread nD τ).loc main_arg7)) (m ((c : Thread nD τ).loc main_arg8)))
        (m ((c : Thread nD τ).loc main_arg1)) (m ((c : Thread nD τ).loc main_arg9)) (m ((c : Thread nD τ).loc main_arg10)) (m ((c : Thread nD τ).loc main_arg11)) := by
  refine (W6_arr m ρ c 5).trans ((Region2.final (V5 m ρ) c).trans ?_)
  show Sage.layer (W5 m ρ c (Proc.devRef .tc main_v52)) (W5 m ρ c (Proc.devRef .tc main_v40)) (W5 m ρ c (Proc.devRef .tc main_arg9)) (W5 m ρ c (Proc.devRef .tc main_arg11))
      (fun q => (W5 m ρ c (Proc.devRef .tc main_v53) : FVec Ideal S1x256 .f32) (ix2 0 q)) = _
  rw [Host.aggregate_5, Host.features_5, layer2, Host.arg9_5, Host.arg11_5]
  exact congrArg (Sage.layer _ _ _ _) (funext fun q => Host.bias_5 m ρ c q)

/-- After the last region the result buffer is the network's value of the sixteen arguments. -/
theorem result : W8 m ρ c (Proc.devRef .tc main_v69)
    = Sage.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) (m ((c : Thread nD τ).loc main_arg15)) := by
  refine (W8_arr m ρ c 5).trans ((Region3.final (V7 m ρ) c).trans ?_)
  show Sage.head (W7 m ρ c (Proc.devRef .tc main_v66)) (W7 m ρ c (Proc.devRef .tc main_arg12)) (fun k => (W7 m ρ c (Proc.devRef .tc main_v67) : FVec Ideal S1x128 .f32) (ix2 0 k))
      (W7 m ρ c (Proc.devRef .tc main_arg14)) (fun q => (W7 m ρ c (Proc.devRef .tc main_v68) : FVec Ideal S1x24 .f32) (ix2 0 q)) = _
  rw [Host.pooled_7, layer3, Host.arg12_7, Host.arg14_7]
  exact congrArg₂ (fun f g => Sage.head _ _ f _ g) (funext fun k => Host.bias_7a m ρ c k) (funext fun q => Host.bias_7b m ρ c q)

end Cert.Sage.Kernel

end
-- ==== Proof.RefValue.lean ====
/-
  The reference program's result is the network's value of its arguments.

  The reference computes, for node features x [50000, 64], an edge list e and graph ids g: the mean over incoming
  edges of x (gather the sources' rows, sum them into the targets' rows, multiply by 1 / max (indegree) 1), then
  for each row r and output q the value max (((agg_r · wl_q) + b_q) + (x_r · wr_q)) 0; the same twice more on the
  256-wide outputs; the mean of the last layer's rows per graph; and the head max (p_r · w1_k + c1_k) 0 followed by
  · w2_q + c2_q. Its transposes of the weight matrices only turn "row q of w" into "column q of wᵀ", so each matrix
  product's entry (r, q) is the dot product of row r of the left operand with row q of the weight.

  The gather, the scatter-sums and the divisions are the very operations the specification is written with, so
  those stages are the specification's by unfolding names. A dense layer is read entry by entry: the two dot
  products and the bias are the specification's, added in another order, ((a + b) + c against (a + c) + b), which
  is the same extended real since addition there is commutative and associative. The rectifier's threshold is the
  same float zero on both sides.
-/
import proofs.«135992_j24670292149153_1_alg».proof.Proof.Gen.ReferenceIdeal.Read
import proofs.«135992_j24670292149153_1_alg».proof.Proof.Spec
import Idealize.ShloMosaic.Lib.ValueIdx
import Idealize.ShloMosaic.Lib.ValueLayout
import Idealize.ShloMosaic.PureOps.Ideal.Laws

set_option maxRecDepth 16384

noncomputable section

namespace Cert.Sage.Ref

open Idealize.ShloMosaic Idealize.ShloMosaic.TcCoe Idealize.ShloMosaic.ValueIdx Idealize.SL.Sem
open Cert.ReferenceIdeal Cert.ReferenceIdeal.Read

/-- A rank-2 index is determined by its two coordinates. -/
theorem idx_eq_ix2 {n0 n1 : Nat} (j : (⟨2, ![n0, n1]⟩ : Shape).Idx) (a : Fin n0) (b : Fin n1)
    (h0 : (j 0).val = a.val) (h1 : (j 1).val = b.val) : j = ix2 a b :=
  funext fun d => Fin.ext (by
    match d with
    | ⟨0, _⟩ => exact h0
    | ⟨1, _⟩ => exact h1)

/-- The first mean over incoming edges is the specification's, operation for operation. -/
theorem agg1_eq (x0 : (⟨S50000x64, .f32⟩ : BufTy).Contents (Elt Ideal)) (x1 : (⟨S2x800000, .i32⟩ : BufTy).Contents (Elt Ideal)) :
    val_main_v24 (F := Ideal) x0 x1 = Sage.aggregate64 x0 x1 := by
  unfold val_main_v24 val_main_v23 val_main_v22 val_main_v21 val_main_v20 val_main_cst_4 val_main_v19 val_main_v18 val_main_v17 val_main_v16
    val_main_v15 val_main_c_3 val_main_v14 val_main_v13 val_main_c val_main_v12 val_main_v11 val_main_v10 val_main_cst_2 val_main_v9 val_main_v8
    val_main_cst_1 val_main_v7 val_main_v6 val_main_v5 val_main_cst_0 val_main_v4 val_main_cst val_main_v3 val_main_v2 val_main_v1 val_main_v0
    Sage.aggregate64 Sage.invDegree Sage.targetCol Sage.sourceCol Sage.sourceRow Sage.targetRow
  rfl

/-- A layer's output at the entry (r, q). -/
theorem layer_apply {K : Nat} (agg h : (⟨2, ![50000, K]⟩ : Shape).Idx → EReal) (wl wr : (⟨2, ![256, K]⟩ : Shape).Idx → EReal)
    (b : Fin 256 → EReal) (r : Fin 50000) (q : Fin 256) :
    Sage.layer agg h wl wr b (ix2 r q)
      = max ((Sage.rowDot agg wl r q + Sage.rowDot h wr r q) + b q) Sage.zeroF := rfl

/-- The first layer: entry (r, q) is max (((agg_r · wl_q) + b_q) + (x_r · wr_q)) 0, the specification's entry with the
    bias added before the second product instead of after. -/
theorem layer1_eq (x0 : (⟨S50000x64, .f32⟩ : BufTy).Contents (Elt Ideal)) (x1 : (⟨S2x800000, .i32⟩ : BufTy).Contents (Elt Ideal)) (x3 : (⟨S256x64, .f32⟩ : BufTy).Contents (Elt Ideal)) (x4 : (⟨S256, .f32⟩ : BufTy).Contents (Elt Ideal)) (x5 : (⟨S256x64, .f32⟩ : BufTy).Contents (Elt Ideal)) :
    val_main_v33 (F := Ideal) x0 x1 x3 x4 x5
      = Sage.layer (val_main_v24 (F := Ideal) x0 x1) (x0) x3 x5 (fun q => x4 (ix1 q)) := by
  funext i
  obtain ⟨r, q, rfl⟩ : ∃ (r : Fin 50000) (q : Fin 256), i = ix2 r q := ⟨i 0, i 1, eq_ix2 i⟩
  have hl : val_main_v26 (F := Ideal) x0 x1 x3 (ix2 r q) = Sage.rowDot (val_main_v24 (F := Ideal) x0 x1) x3 r q := by
    refine (val_main_v26_apply x0 x1 x3 (ix2 r q)).trans ?_
    unfold Sage.rowDot
    refine Finset.sum_congr rfl fun k _ => ?_
    refine congrArg₂ (· * ·) (congrArg _ (idx_eq_ix2 _ r k rfl rfl)) ?_
    exact (val_main_v25_apply x3 _).trans (congrArg x3 (idx_eq_ix2 _ q k rfl rfl))
  have hr : val_main_v31 (F := Ideal) x0 x5 (ix2 r q) = Sage.rowDot (x0) x5 r q := by
    refine (val_main_v31_apply x0 x5 (ix2 r q)).trans ?_
    unfold Sage.rowDot
    refine Finset.sum_congr rfl fun k _ => ?_
    refine congrArg₂ (· * ·) (congrArg _ (idx_eq_ix2 _ r k rfl rfl)) ?_
    exact (val_main_v30_apply x5 _).trans (congrArg x5 (idx_eq_ix2 _ q k rfl rfl))
  have hb : val_main_v28 (F := Ideal) x4 (ix2 r q) = x4 (ix1 q) := by
    refine (val_main_v28_apply x4 _).trans ((val_main_v27_apply x4 _).trans (congrArg x4 ?_))
    funext d; match d with | ⟨0, _⟩ => rfl
  have hz : val_main_call0_v0 (F := Ideal) (ix2 r q) = Sage.zeroF := (val_main_call0_v0_apply (F := Ideal) _).trans rfl
  refine Eq.trans ?_ (layer_apply _ _ _ _ _ r q).symm
  unfold val_main_v33
  refine (maximumf_apply _ _ _).trans (congrArg₂ max ?_ hz)
  unfold val_main_v32
  refine (addf_apply _ _ _).trans ?_
  refine Eq.trans (congrArg₂ (· + ·) ?_ hr) (add_right_comm _ _ _)
  unfold val_main_v29
  exact (addf_apply _ _ _).trans (congrArg₂ (· + ·) hl hb)
/-- The second mean over incoming edges, of the first layer's output. -/
theorem agg2_eq (x0 : (⟨S50000x64, .f32⟩ : BufTy).Contents (Elt Ideal)) (x1 : (⟨S2x800000, .i32⟩ : BufTy).Contents (Elt Ideal)) (x3 : (⟨S256x64, .f32⟩ : BufTy).Contents (Elt Ideal)) (x4 : (⟨S256, .f32⟩ : BufTy).Contents (Elt Ideal)) (x5 : (⟨S256x64, .f32⟩ : BufTy).Contents (Elt Ideal)) :
    val_main_v45 (F := Ideal) x0 x1 x3 x4 x5 = Sage.aggregate256 (val_main_v33 (F := Ideal) x0 x1 x3 x4 x5) x1 := by
  unfold val_main_v45 val_main_v44 val_main_v43 val_main_v42 val_main_v41 val_main_cst_7 val_main_v40
  generalize val_main_v33 (F := Ideal) x0 x1 x3 x4 x5 = h
  unfold val_main_v39 val_main_v38 val_main_v37 val_main_v36 val_main_c_6 val_main_v35 val_main_v34 val_main_c_5
    val_main_v12 val_main_v11 val_main_v10 val_main_cst_2 val_main_v9 val_main_v8
    val_main_cst_1 val_main_v7 val_main_v6 val_main_v5 val_main_cst_0 val_main_v4 val_main_cst val_main_v3 val_main_v2 val_main_v1 val_main_v0
    Sage.aggregate256 Sage.invDegree Sage.targetCol Sage.sourceCol Sage.sourceRow Sage.targetRow
  rfl

/-- The second layer, on the first layer's output and its mean over incoming edges. -/
theorem layer2_eq (x0 : (⟨S50000x64, .f32⟩ : BufTy).Contents (Elt Ideal)) (x1 : (⟨S2x800000, .i32⟩ : BufTy).Contents (Elt Ideal)) (x3 : (⟨S256x64, .f32⟩ : BufTy).Contents (Elt Ideal)) (x4 : (⟨S256, .f32⟩ : BufTy).Contents (Elt Ideal)) (x5 : (⟨S256x64, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) :
    val_main_v54 (F := Ideal) x0 x1 x3 x4 x5 x6 x7 x8
      = Sage.layer (val_main_v45 (F := Ideal) x0 x1 x3 x4 x5) (val_main_v33 (F := Ideal) x0 x1 x3 x4 x5) x6 x8 (fun q => x7 (ix1 q)) := by
  funext i
  obtain ⟨r, q, rfl⟩ : ∃ (r : Fin 50000) (q : Fin 256), i = ix2 r q := ⟨i 0, i 1, eq_ix2 i⟩
  have hl : val_main_v47 (F := Ideal) x0 x1 x3 x4 x5 x6 (ix2 r q) = Sage.rowDot (val_main_v45 (F := Ideal) x0 x1 x3 x4 x5) x6 r q := by
    refine (val_main_v47_apply x0 x1 x3 x4 x5 x6 (ix2 r q)).trans ?_
    unfold Sage.rowDot
    refine Finset.sum_congr rfl fun k _ => ?_
    refine congrArg₂ (· * ·) (congrArg _ (idx_eq_ix2 _ r k rfl rfl)) ?_
    exact (val_main_v46_apply x6 _).trans (congrArg x6 (idx_eq_ix2 _ q k rfl rfl))
  have hr : val_main_v52 (F := Ideal) x0 x1 x3 x4 x5 x8 (ix2 r q) = Sage.rowDot (val_main_v33 (F := Ideal) x0 x1 x3 x4 x5) x8 r q := by
    refine (val_main_v52_apply x0 x1 x3 x4 x5 x8 (ix2 r q)).trans ?_
    unfold Sage.rowDot
    refine Finset.sum_congr rfl fun k _ => ?_
    refine congrArg₂ (· * ·) (congrArg _ (idx_eq_ix2 _ r k rfl rfl)) ?_
    exact (val_main_v51_apply x8 _).trans (congrArg x8 (idx_eq_ix2 _ q k rfl rfl))
  have hb : val_main_v49 (F := Ideal) x7 (ix2 r q) = x7 (ix1 q) := by
    refine (val_main_v49_apply x7 _).trans ((val_main_v48_apply x7 _).trans (congrArg x7 ?_))
    funext d; match d with | ⟨0, _⟩ => rfl
  have hz : val_main_call1_v0 (F := Ideal) (ix2 r q) = Sage.zeroF := (val_main_call1_v0_apply (F := Ideal) _).trans rfl
  refine Eq.trans ?_ (layer_apply _ _ _ _ _ r q).symm
  unfold val_main_v54
  refine (maximumf_apply _ _ _).trans (congrArg₂ max ?_ hz)
  unfold val_main_v53
  refine (addf_apply _ _ _).trans ?_
  refine Eq.trans (congrArg₂ (· + ·) ?_ hr) (add_right_comm _ _ _)
  unfold val_main_v50
  exact (addf_apply _ _ _).trans (congrArg₂ (· + ·) hl hb)

/-- The third mean over incoming edges, of the second layer's output. -/
theorem agg3_eq (x0 : (⟨S50000x64, .f32⟩ : BufTy).Contents (Elt Ideal)) (x1 : (⟨S2x800000, .i32⟩ : BufTy).Contents (Elt Ideal)) (x3 : (⟨S256x64, .f32⟩ : BufTy).Contents (Elt Ideal)) (x4 : (⟨S256, .f32⟩ : BufTy).Contents (Elt Ideal)) (x5 : (⟨S256x64, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) :
    val_main_v66 (F := Ideal) x0 x1 x3 x4 x5 x6 x7 x8 = Sage.aggregate256 (val_main_v54 (F := Ideal) x0 x1 x3 x4 x5 x6 x7 x8) x1 := by
  unfold val_main_v66 val_main_v65 val_main_v64 val_main_v63 val_main_v62 val_main_cst_10 val_main_v61
  generalize val_main_v54 (F := Ideal) x0 x1 x3 x4 x5 x6 x7 x8 = h
  unfold val_main_v60 val_main_v59 val_main_v58 val_main_v57 val_main_c_9 val_main_v56 val_main_v55 val_main_c_8
    val_main_v12 val_main_v11 val_main_v10 val_main_cst_2 val_main_v9 val_main_v8
    val_main_cst_1 val_main_v7 val_main_v6 val_main_v5 val_main_cst_0 val_main_v4 val_main_cst val_main_v3 val_main_v2 val_main_v1 val_main_v0
    Sage.aggregate256 Sage.invDegree Sage.targetCol Sage.sourceCol Sage.sourceRow Sage.targetRow
  rfl

/-- The third layer, on the second layer's output and its mean over incoming edges. -/
theorem layer3_eq (x0 : (⟨S50000x64, .f32⟩ : BufTy).Contents (Elt Ideal)) (x1 : (⟨S2x800000, .i32⟩ : BufTy).Contents (Elt Ideal)) (x3 : (⟨S256x64, .f32⟩ : BufTy).Contents (Elt Ideal)) (x4 : (⟨S256, .f32⟩ : BufTy).Contents (Elt Ideal)) (x5 : (⟨S256x64, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) :
    val_main_v75 (F := Ideal) x0 x1 x3 x4 x5 x6 x7 x8 x9 x10 x11
      = Sage.layer (val_main_v66 (F := Ideal) x0 x1 x3 x4 x5 x6 x7 x8) (val_main_v54 (F := Ideal) x0 x1 x3 x4 x5 x6 x7 x8) x9 x11 (fun q => x10 (ix1 q)) := by
  funext i
  obtain ⟨r, q, rfl⟩ : ∃ (r : Fin 50000) (q : Fin 256), i = ix2 r q := ⟨i 0, i 1, eq_ix2 i⟩
  have hl : val_main_v68 (F := Ideal) x0 x1 x3 x4 x5 x6 x7 x8 x9 (ix2 r q) = Sage.rowDot (val_main_v66 (F := Ideal) x0 x1 x3 x4 x5 x6 x7 x8) x9 r q := by
    refine (val_main_v68_apply x0 x1 x3 x4 x5 x6 x7 x8 x9 (ix2 r q)).trans ?_
    unfold Sage.rowDot
    refine Finset.sum_congr rfl fun k _ => ?_
    refine congrArg₂ (· * ·) (congrArg _ (idx_eq_ix2 _ r k rfl rfl)) ?_
    exact (val_main_v67_apply x9 _).trans (congrArg x9 (idx_eq_ix2 _ q k rfl rfl))
  have hr : val_main_v73 (F := Ideal) x0 x1 x3 x4 x5 x6 x7 x8 x11 (ix2 r q) = Sage.rowDot (val_main_v54 (F := Ideal) x0 x1 x3 x4 x5 x6 x7 x8) x11 r q := by
    refine (val_main_v73_apply x0 x1 x3 x4 x5 x6 x7 x8 x11 (ix2 r q)).trans ?_
    unfold Sage.rowDot
    refine Finset.sum_congr rfl fun k _ => ?_
    refine congrArg₂ (· * ·) (congrArg _ (idx_eq_ix2 _ r k rfl rfl)) ?_
    exact (val_main_v72_apply x11 _).trans (congrArg x11 (idx_eq_ix2 _ q k rfl rfl))
  have hb : val_main_v70 (F := Ideal) x10 (ix2 r q) = x10 (ix1 q) := by
    refine (val_main_v70_apply x10 _).trans ((val_main_v69_apply x10 _).trans (congrArg x10 ?_))
    funext d; match d with | ⟨0, _⟩ => rfl
  have hz : val_main_call2_v0 (F := Ideal) (ix2 r q) = Sage.zeroF := (val_main_call2_v0_apply (F := Ideal) _).trans rfl
  refine Eq.trans ?_ (layer_apply _ _ _ _ _ r q).symm
  unfold val_main_v75
  refine (maximumf_apply _ _ _).trans (congrArg₂ max ?_ hz)
  unfold val_main_v74
  refine (addf_apply _ _ _).trans ?_
  refine Eq.trans (congrArg₂ (· + ·) ?_ hr) (add_right_comm _ _ _)
  unfold val_main_v71
  exact (addf_apply _ _ _).trans (congrArg₂ (· + ·) hl hb)

/-- The mean per graph of the third layer's output. -/
theorem pool_eq (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S256x64, .f32⟩ : BufTy).Contents (Elt Ideal)) (x4 : (⟨S256, .f32⟩ : BufTy).Contents (Elt Ideal)) (x5 : (⟨S256x64, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) :
    val_main_v87 (F := Ideal) x0 x1 x2 x3 x4 x5 x6 x7 x8 x9 x10 x11 = Sage.pooled (val_main_v75 (F := Ideal) x0 x1 x3 x4 x5 x6 x7 x8 x9 x10 x11) x2 := by
  unfold val_main_v87 val_main_v78
  generalize val_main_v75 (F := Ideal) x0 x1 x3 x4 x5 x6 x7 x8 x9 x10 x11 = h
  unfold val_main_v86 val_main_v85 val_main_v84 val_main_v83 val_main_cst_14 val_main_v82 val_main_v81 val_main_v80 val_main_cst_13
    val_main_v79 val_main_cst_12 val_main_v77 val_main_v76 val_main_cst_11 Sage.pooled
  rfl

/-- The head's output at the entry (r, q). -/
theorem head_apply (p : FVec Ideal Cert.KernelIdeal.S128x256 .f32) (w1 : FVec Ideal Cert.KernelIdeal.S128x256 .f32) (c1 : Fin 128 → EReal)
    (w2 : FVec Ideal Cert.KernelIdeal.S24x128 .f32) (c2 : Fin 24 → EReal) (r : Fin 128) (q : Fin 24) :
    Sage.head p w1 c1 w2 c2 (ix2 r q)
      = (∑ k : Fin 128, Sage.hiddenAt p w1 c1 r k * w2 (ix2 q k)) + c2 q := rfl

/-- A hidden unit of the head: entry (r, k) is max ((p_r · w1_k) + c1_k) 0. -/
theorem hidden_eq (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S256x64, .f32⟩ : BufTy).Contents (Elt Ideal)) (x4 : (⟨S256, .f32⟩ : BufTy).Contents (Elt Ideal)) (x5 : (⟨S256x64, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S128x256, .f32⟩ : BufTy).Contents (Elt Ideal)) (x13 : (⟨S128, .f32⟩ : BufTy).Contents (Elt Ideal)) (r k : Fin 128) :
    val_main_v93 (F := Ideal) x0 x1 x2 x3 x4 x5 x6 x7 x8 x9 x10 x11 x12 x13 (ix2 r k)
      = Sage.hiddenAt (val_main_v87 (F := Ideal) x0 x1 x2 x3 x4 x5 x6 x7 x8 x9 x10 x11) x12 (fun k => x13 (ix1 k)) r k := by
  have hd : val_main_v89 (F := Ideal) x0 x1 x2 x3 x4 x5 x6 x7 x8 x9 x10 x11 x12 (ix2 r k) = Sage.rowDot (val_main_v87 (F := Ideal) x0 x1 x2 x3 x4 x5 x6 x7 x8 x9 x10 x11) x12 r k := by
    refine (val_main_v89_apply x0 x1 x2 x3 x4 x5 x6 x7 x8 x9 x10 x11 x12 (ix2 r k)).trans ?_
    unfold Sage.rowDot
    refine Finset.sum_congr rfl fun j _ => ?_
    refine congrArg₂ (· * ·) (congrArg _ (idx_eq_ix2 _ r j rfl rfl)) ?_
    exact (val_main_v88_apply x12 _).trans (congrArg x12 (idx_eq_ix2 _ k j rfl rfl))
  have hb : val_main_v91 (F := Ideal) x13 (ix2 r k) = x13 (ix1 k) := by
    refine (val_main_v91_apply x13 _).trans ((val_main_v90_apply x13 _).trans (congrArg x13 ?_))
    funext d; match d with | ⟨0, _⟩ => rfl
  have hz : val_main_call3_v0 (F := Ideal) (ix2 r k) = Sage.zeroF := (val_main_call3_v0_apply (F := Ideal) _).trans rfl
  unfold Sage.hiddenAt val_main_v93
  refine (maximumf_apply _ _ _).trans (congrArg₂ max ?_ hz)
  unfold val_main_v92
  exact (addf_apply _ _ _).trans (congrArg₂ (· + ·) hd hb)

/-- The head's output: entry (r, q) is the hidden row r against row q of the second weight, plus the bias. -/
theorem head_eq (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S256x64, .f32⟩ : BufTy).Contents (Elt Ideal)) (x4 : (⟨S256, .f32⟩ : BufTy).Contents (Elt Ideal)) (x5 : (⟨S256x64, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S128x256, .f32⟩ : BufTy).Contents (Elt Ideal)) (x13 : (⟨S128, .f32⟩ : BufTy).Contents (Elt Ideal)) (x14 : (⟨S24x128, .f32⟩ : BufTy).Contents (Elt Ideal)) (x15 : (⟨S24, .f32⟩ : BufTy).Contents (Elt Ideal)) :
    val_main_v98 (F := Ideal) x0 x1 x2 x3 x4 x5 x6 x7 x8 x9 x10 x11 x12 x13 x14 x15
      = Sage.head (val_main_v87 (F := Ideal) x0 x1 x2 x3 x4 x5 x6 x7 x8 x9 x10 x11) x12 (fun k => x13 (ix1 k)) x14 (fun q => x15 (ix1 q)) := by
  funext i
  obtain ⟨r, q, rfl⟩ : ∃ (r : Fin 128) (q : Fin 24), i = ix2 r q := ⟨i 0, i 1, eq_ix2 i⟩
  have hb : val_main_v97 (F := Ideal) x15 (ix2 r q) = x15 (ix1 q) := by
    refine (val_main_v97_apply x15 _).trans ((val_main_v96_apply x15 _).trans (congrArg x15 ?_))
    funext d; match d with | ⟨0, _⟩ => rfl
  refine Eq.trans ?_ (head_apply _ _ _ _ _ r q).symm
  unfold val_main_v98
  refine (addf_apply _ _ _).trans (congrArg₂ (· + ·) ?_ hb)
  refine (val_main_v95_apply x0 x1 x2 x3 x4 x5 x6 x7 x8 x9 x10 x11 x12 x13 x14 (ix2 r q)).trans ?_
  refine Finset.sum_congr rfl fun k _ => ?_
  refine congrArg₂ (· * ·) ?_ ?_
  · exact Eq.trans (congrArg _ (idx_eq_ix2 _ r k rfl rfl)) (hidden_eq x0 x1 x2 x3 x4 x5 x6 x7 x8 x9 x10 x11 x12 x13 r k)
  · exact (val_main_v94_apply x14 _).trans (congrArg x14 (idx_eq_ix2 _ q k rfl rfl))

/-- The reference's last stage, as a function of the sixteen arguments, is the network. -/
theorem value_eq (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S256x64, .f32⟩ : BufTy).Contents (Elt Ideal)) (x4 : (⟨S256, .f32⟩ : BufTy).Contents (Elt Ideal)) (x5 : (⟨S256x64, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S128x256, .f32⟩ : BufTy).Contents (Elt Ideal)) (x13 : (⟨S128, .f32⟩ : BufTy).Contents (Elt Ideal)) (x14 : (⟨S24x128, .f32⟩ : BufTy).Contents (Elt Ideal)) (x15 : (⟨S24, .f32⟩ : BufTy).Contents (Elt Ideal)) :
    val_main_v98 (F := Ideal) x0 x1 x2 x3 x4 x5 x6 x7 x8 x9 x10 x11 x12 x13 x14 x15 = Sage.network x0 x1 x2 x3 x4 x5 x6 x7 x8 x9 x10 x11 x12 x13 x14 x15 := by
  unfold Sage.network Sage.hiddenNext Sage.hidden1
  rw [head_eq, pool_eq, layer3_eq, agg3_eq, layer2_eq, agg2_eq, layer1_eq, agg1_eq]

/-- The reference program's result is the network's value of the sixteen arguments. -/
theorem result_eq (m : (ℓ : Loc nD τ sig) → Buf (Elt Ideal) ℓ) (c : Dev nD) :
    Cert.ReferenceIdeal.Value.res_main_v98 (F := Ideal) m c
      = Sage.network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) :=
  (val_main_v98_eq (F := Ideal) m c).trans (value_eq _ _ _ _ _ _ _ _ _ _ _ _ _ _ _ _)

end Cert.Sage.Ref

end
-- ==== Proof.lean ====
/-
  The certificate of a three-layer mean-aggregating graph network with a pooled two-layer head.

  Both programs gather each layer's input along the edges' sources, sum it into the targets, scale by
  `1 / max (indegree) 1`, and pool the last layer's rows by graph with the same host operations. They differ in the
  dense parts only. The kernel program computes each layer in blocks of 2000 rows as
  `max ((agg · wlᵀ + h · wrᵀ) + b) 0`, through narrow-format casts that are the identity on extended reals, and the
  head in one block; the reference computes whole arrays as `max ((agg · wlᵀ + b) + h · wrᵀ) 0`. On the extended
  reals addition is commutative and associative, so the two layers agree entry by entry whatever the inputs are:
  the precondition is never used, and no distributivity is.

  The kernel's side: the launch with the result buffer named, each region's output array as the layer's value of
  what it was entered with, the host stretches as the shared operations. The reference's side: its run and its
  stages read at an index. Both results are the one function `Sage.network` of the sixteen arguments.
-/
import proofs.«135992_j24670292149153_1_alg».proof.Defs
import proofs.«135992_j24670292149153_1_alg».proof.Proof.Gen.Kernel
import proofs.«135992_j24670292149153_1_alg».proof.Proof.Gen.Kernel.Skeleton
import proofs.«135992_j24670292149153_1_alg».proof.Proof.Gen.Kernel.Launch
import proofs.«135992_j24670292149153_1_alg».proof.Proof.Gen.Kernel.Points
import proofs.«135992_j24670292149153_1_alg».proof.Proof.Gen.Kernel.Frame
import proofs.«135992_j24670292149153_1_alg».proof.Proof.Gen.KernelIdeal
import proofs.«135992_j24670292149153_1_alg».proof.Proof.Gen.KernelIdeal.Skeleton
import proofs.«135992_j24670292149153_1_alg».proof.Proof.Gen.KernelIdeal.Launch
import proofs.«135992_j24670292149153_1_alg».proof.Proof.Gen.KernelIdeal.Points
import proofs.«135992_j24670292149153_1_alg».proof.Proof.Gen.KernelIdeal.Frame
import proofs.«135992_j24670292149153_1_alg».proof.Proof.Gen.ReferenceIdeal
import proofs.«135992_j24670292149153_1_alg».proof.Proof.Gen.Pre_finite_inputs
import proofs.«135992_j24670292149153_1_alg».proof.Proof.Gen.ReferenceIdeal.Run
import proofs.«135992_j24670292149153_1_alg».proof.Proof.Gen.ReferenceIdeal.Read
import proofs.«135992_j24670292149153_1_alg».proof.Proof.Spec
import proofs.«135992_j24670292149153_1_alg».proof.Proof.KRun
import proofs.«135992_j24670292149153_1_alg».proof.Proof.KValue
import proofs.«135992_j24670292149153_1_alg».proof.Proof.RefValue
import Idealize.ShloMosaic.Adequacy
import Idealize.ShloMosaic.Init

noncomputable section

namespace Cert.Proof

open Idealize.ShloMosaic Idealize.ShloMosaic.TcCoe Idealize.SL.Sem

/-- The program as printed terminates without a fault and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference terminates and leaves its arguments alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the sixteen arguments both programs end with the network's value of them. -/
theorem algebraic : Cert.algebraic_KernelIdeal_ReferenceIdeal := by
  intro m ρ m' ρ' _ hagree
  refine ⟨fun c => Sage.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Sage.Kernel.result m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15⟩ := hagree c
    rw [Sage.Ref.result_eq, a0, a1, a2, a3, a4, a5, a6, a7, a8, a9, a10, a11, a12, a13, a14, a15]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
